-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x577x1280 : Shape := ⟨3, ![8, 577, 1280]⟩
abbrev S8x16x577x577 : Shape := ⟨4, ![8, 16, 577, 577]⟩
abbrev S3840x1280 : Shape := ⟨2, ![3840, 1280]⟩
abbrev S3840 : Shape := ⟨1, ![3840]⟩
abbrev S1280x1280 : Shape := ⟨2, ![1280, 1280]⟩
abbrev S1280 : Shape := ⟨1, ![1280]⟩
abbrev S_ : Shape := ⟨0, ![]⟩

class Facts : Prop where
  bcast_S_S8x577x1280 : S_.BroadcastsInDim S8x577x1280 (![] : Fin 0 → Fin S8x577x1280.rank)
  reducesTo_S8x577x1280_S_d0_1_2 : S8x577x1280.ReducesTo [0, 1, 2] S_
  h_S_ : 0 < S_.numel
  bcast_S_S8x16x577x577 : S_.BroadcastsInDim S8x16x577x577 (![] : Fin 0 → Fin S8x16x577x577.rank)
  reducesTo_S8x16x577x577_S_d0_1_2_3 : S8x16x577x577.ReducesTo [0, 1, 2, 3] S_
  bcast_S_S3840x1280 : S_.BroadcastsInDim S3840x1280 (![] : Fin 0 → Fin S3840x1280.rank)
  reducesTo_S3840x1280_S_d0_1 : S3840x1280.ReducesTo [0, 1] S_
  bcast_S_S3840 : S_.BroadcastsInDim S3840 (![] : Fin 0 → Fin S3840.rank)
  reducesTo_S3840_S_d0 : S3840.ReducesTo [0] S_
  bcast_S_S1280x1280 : S_.BroadcastsInDim S1280x1280 (![] : Fin 0 → Fin S1280x1280.rank)
  reducesTo_S1280x1280_S_d0_1 : S1280x1280.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280x1280 .f32) (main_arg5 : FVec F S1280 .f32) (main_v13 : IVec S_ 1) (main_v16 : IVec S3840 1) : IVec S_ 1 :=
  let main_c_5 : IVec S_ 1 := constantI S_ 1 1#1
  let main_v17 : IVec S_ 1 := (fun x v => Host.reduce IntOp.andi x v reducesTo_S3840_S_d0 h_S_) main_v16 main_c_5
  let main_v18 : IVec S_ 1 := andi main_v13 main_v17
  let main_v19 : FVec F S1280x1280 .f32 := Host.absf main_arg4
  let main_cst_6 : FVec F S_ .f32 := constant S_ .f32 0x7F800000#32
  let main_v20 : FVec F S1280x1280 .f32 := broadcastInDim S1280x1280 ![] bcast_S_S1280x1280 main_cst_6
  let main_v21 : IVec S1280x1280 1 := cmpf .olt main_v19 main_v20
  let main_c_7 : IVec S_ 1 := constantI S_ 1 1#1
  let main_v22 : IVec S_ 1 := (fun x v => Host.reduce IntOp.andi x v reducesTo_S1280x1280_S_d0_1 h_S_) main_v21 main_c_7
  let main_v23 : IVec S_ 1 := andi main_v18 main_v22
  let main_v24 : FVec F S1280 .f32 := Host.absf main_arg5
  let main_cst_8 : FVec F S_ .f32 := constant S_ .f32 0x7F800000#32
  let main_v25 : FVec F S1280 .f32 := broadcastInDim S1280 ![] bcast_S_S1280 main_cst_8
  let main_v26 : IVec S1280 1 := cmpf .olt main_v24 main_v25
  let main_c_9 : IVec S_ 1 := constantI S_ 1 1#1
  let main_v27 : IVec S_ 1 := (fun x v => Host.reduce IntOp.andi x v reducesTo_S1280_S_d0 h_S_) main_v26 main_c_9
  let main_v28 : IVec S_ 1 := andi main_v23 main_v27
  main_v28

def fn {F : FTy → Type} [FloatOps F] (main_arg0 : FVec F S8x577x1280 .f32) (main_arg1 : FVec F S8x16x577x577 .f32) (main_arg2 : FVec F S3840x1280 .f32) (main_arg3 : FVec F S3840 .f32) (main_arg4 : FVec F S1280x1280 .f32) (main_arg5 : FVec F S1280 .f32) : IVec S_ 1 :=
  let main_v0 : FVec F S8x577x1280 .f32 := Host.absf main_arg0
  let main_cst : FVec F S_ .f32 := constant S_ .f32 0x7F800000#32
  let main_v1 : FVec F S8x577x1280 .f32 := broadcastInDim S8x577x1280 ![] bcast_S_S8x577x1280 main_cst
  let main_v2 : IVec S8x577x1280 1 := cmpf .olt main_v0 main_v1
  let main_c : IVec S_ 1 := constantI S_ 1 1#1
  let main_v3 : IVec S_ 1 := (fun x v => Host.reduce IntOp.andi x v reducesTo_S8x577x1280_S_d0_1_2 h_S_) main_v2 main_c
  let main_v4 : FVec F S8x16x577x577 .f32 := Host.absf main_arg1
  let main_cst_0 : FVec F S_ .f32 := constant S_ .f32 0x7F800000#32
  let main_v5 : FVec F S8x16x577x577 .f32 := broadcastInDim S8x16x577x577 ![] bcast_S_S8x16x577x577 main_cst_0
  let main_v6 : IVec S8x16x577x577 1 := cmpf .olt main_v4 main_v5
  let main_c_1 : IVec S_ 1 := constantI S_ 1 1#1
  let main_v7 : IVec S_ 1 := (fun x v => Host.reduce IntOp.andi x v reducesTo_S8x16x577x577_S_d0_1_2_3 h_S_) main_v6 main_c_1
  let main_v8 : IVec S_ 1 := andi main_v3 main_v7
  let main_v9 : FVec F S3840x1280 .f32 := Host.absf main_arg2
  let main_cst_2 : FVec F S_ .f32 := constant S_ .f32 0x7F800000#32
  let main_v10 : FVec F S3840x1280 .f32 := broadcastInDim S3840x1280 ![] bcast_S_S3840x1280 main_cst_2
  let main_v11 : IVec S3840x1280 1 := cmpf .olt main_v9 main_v10
  let main_c_3 : IVec S_ 1 := constantI S_ 1 1#1
  let main_v12 : IVec S_ 1 := (fun x v => Host.reduce IntOp.andi x v reducesTo_S3840x1280_S_d0_1 h_S_) main_v11 main_c_3
  let main_v13 : IVec S_ 1 := andi main_v8 main_v12
  let main_v14 : FVec F S3840 .f32 := Host.absf main_arg3
  let main_cst_4 : FVec F S_ .f32 := constant S_ .f32 0x7F800000#32
  let main_v15 : FVec F S3840 .f32 := broadcastInDim S3840 ![] bcast_S_S3840 main_cst_4
  let main_v16 : IVec S3840 1 := cmpf .olt main_v14 main_v15
  fn_part1 (F := F) main_arg4 main_arg5 main_v13 main_v16
-- ==== Kernel.lean ====
abbrev S8x577x1280 : Shape := ⟨3, ![8, 577, 1280]⟩
abbrev S8x16x577x577 : Shape := ⟨4, ![8, 16, 577, 577]⟩
abbrev S3840x1280 : Shape := ⟨2, ![3840, 1280]⟩
abbrev S3840 : Shape := ⟨1, ![3840]⟩
abbrev S1280x1280 : Shape := ⟨2, ![1280, 1280]⟩
abbrev S1280 : Shape := ⟨1, ![1280]⟩
abbrev S4616x1280 : Shape := ⟨2, ![4616, 1280]⟩
abbrev S_ : Shape := ⟨0, ![]⟩
abbrev S4672x1280 : Shape := ⟨2, ![4672, 1280]⟩
abbrev S584x1280 : Shape := ⟨2, ![584, 1280]⟩
abbrev S1x1280 : Shape := ⟨2, ![1, 1280]⟩
abbrev S8x577x16x80 : Shape := ⟨4, ![8, 577, 16, 80]⟩
abbrev S8x16x577x80 : Shape := ⟨4, ![8, 16, 577, 80]⟩
abbrev S128x577x80 : Shape := ⟨3, ![128, 577, 80]⟩
abbrev S128x577x577 : Shape := ⟨3, ![128, 577, 577]⟩
abbrev S4x577x577 : Shape := ⟨3, ![4, 577, 577]⟩
abbrev S4x577x80 : Shape := ⟨3, ![4, 577, 80]⟩
abbrev S4x577 : Shape := ⟨2, ![4, 577]⟩
abbrev S4x1x577 : Shape := ⟨3, ![4, 1, 577]⟩
abbrev S4x577x1 : Shape := ⟨3, ![4, 577, 1]⟩

abbrev nBuf : Space → Nat
  | .hbm => 31
  | .vmem => 20
  | .smem => 0
  | _ => 0

abbrev bufTy : (tb : Table) → Fin (tcTables nBuf tb) → BufTy
  | .hbm, ⟨0, _⟩ => ⟨S8x577x1280, .f32⟩
  | .hbm, ⟨1, _⟩ => ⟨S8x16x577x577, .f32⟩
  | .hbm, ⟨2, _⟩ => ⟨S3840x1280, .f32⟩
  | .hbm, ⟨3, _⟩ => ⟨S3840, .f32⟩
  | .hbm, ⟨4, _⟩ => ⟨S1280x1280, .f32⟩
  | .hbm, ⟨5, _⟩ => ⟨S1280, .f32⟩
  | .hbm, ⟨6, _⟩ => ⟨S1280x1280, .f32⟩
  | .hbm, ⟨7, _⟩ => ⟨S1280, .f32⟩
  | .hbm, ⟨8, _⟩ => ⟨S4616x1280, .f32⟩
  | .hbm, ⟨9, _⟩ => ⟨S1280x1280, .f32⟩
  | .hbm, ⟨10, _⟩ => ⟨S_, .i32⟩
  | .hbm, ⟨11, _⟩ => ⟨S_, .f32⟩
  | .hbm, ⟨12, _⟩ => ⟨S4672x1280, .f32⟩
  | .hbm, ⟨13, _⟩ => ⟨S4672x1280, .f32⟩
  | .hbm, ⟨14, _⟩ => ⟨S4616x1280, .f32⟩
  | .hbm, ⟨15, _⟩ => ⟨S8x577x16x80, .f32⟩
  | .hbm, ⟨16, _⟩ => ⟨S8x16x577x80, .f32⟩
  | .hbm, ⟨17, _⟩ => ⟨S128x577x80, .f32⟩
  | .hbm, ⟨18, _⟩ => ⟨S128x577x577, .f32⟩
  | .hbm, ⟨19, _⟩ => ⟨S128x577x577, .f32⟩
  | .hbm, ⟨20, _⟩ => ⟨S128x577x80, .f32⟩
  | .hbm, ⟨21, _⟩ => ⟨S8x16x577x80, .f32⟩
  | .hbm, ⟨22, _⟩ => ⟨S8x577x16x80, .f32⟩
  | .hbm, ⟨23, _⟩ => ⟨S4616x1280, .f32⟩
  | .hbm, ⟨24, _⟩ => ⟨S1280x1280, .f32⟩
  | .hbm, ⟨25, _⟩ => ⟨S_, .i32⟩
  | .hbm, ⟨26, _⟩ => ⟨S_, .f32⟩
  | .hbm, ⟨27, _⟩ => ⟨S4672x1280, .f32⟩
  | .hbm, ⟨28, _⟩ => ⟨S4672x1280, .f32⟩
  | .hbm, ⟨29, _⟩ => ⟨S4616x1280, .f32⟩
  | .hbm, ⟨30, _⟩ => ⟨S8x577x1280, .f32⟩
  | .local _ .vmem, ⟨0, _⟩ => ⟨S584x1280, .f32⟩
  | .local _ .vmem, ⟨1, _⟩ => ⟨S584x1280, .f32⟩
  | .local _ .vmem, ⟨2, _⟩ => ⟨S1280x1280, .f32⟩
  | .local _ .vmem, ⟨3, _⟩ => ⟨S1280, .f32⟩
  | .local _ .vmem, ⟨4, _⟩ => ⟨S584x1280, .f32⟩
  | .local _ .vmem, ⟨5, _⟩ => ⟨S584x1280, .f32⟩
  | .local _ .vmem, ⟨6, _⟩ => ⟨S4x577x577, .f32⟩
  | .local _ .vmem, ⟨7, _⟩ => ⟨S4x577x577, .f32⟩
  | .local _ .vmem, ⟨8, _⟩ => ⟨S4x577x80, .f32⟩
  | .local _ .vmem, ⟨9, _⟩ => ⟨S4x577x80, .f32⟩
  | .local _ .vmem, ⟨10, _⟩ => ⟨S4x577x577, .f32⟩
  | .local _ .vmem, ⟨11, _⟩ => ⟨S4x577x577, .f32⟩
  | .local _ .vmem, ⟨12, _⟩ => ⟨S4x577x80, .f32⟩
  | .local _ .vmem, ⟨13, _⟩ => ⟨S4x577x80, .f32⟩
  | .local _ .vmem, ⟨14, _⟩ => ⟨S584x1280, .f32⟩
  | .local _ .vmem, ⟨15, _⟩ => ⟨S584x1280, .f32⟩
  | .local _ .vmem, ⟨16, _⟩ => ⟨S1280x1280, .f32⟩
  | .local _ .vmem, ⟨17, _⟩ => ⟨S1280, .f32⟩
  | .local _ .vmem, ⟨18, _⟩ => ⟨S584x1280, .f32⟩
  | .local _ .vmem, ⟨19, _⟩ => ⟨S584x1280, .f32⟩
  | _, _ => ⟨S8x577x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call1_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S584x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S584x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x577x577 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x577x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x577x577 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x577x80 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S584x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1280x1280 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1280 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S584x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S3840x1280_S1280x1280_2560_0 : S3840x1280.Slices ![2560, 0] S1280x1280
  slices_S3840_S1280_2560 : S3840.Slices ![2560] S1280
  shapeCasts_S8x577x1280_S4616x1280 : S8x577x1280.ShapeCasts S4616x1280
  transposes_S1280x1280_S1280x1280_1_0 : S1280x1280.Transposes [1, 0] S1280x1280
  pads_S4616x1280_S4672x1280_0560_000 : S4616x1280.Pads (![0, 0] : Fin 2 → Nat) ![56, 0] ![0, 0] S4672x1280
  h_S_ : 0 < S_.numel
  inb_S584x1280_S584x1280_0_0 : ∀ a, (![0, 0] : Fin 2 → Nat) a + S584x1280.size a ≤ S584x1280.size a
  h_S584x1280 : 0 < S584x1280.numel
  shapeCasts_S584x1280_S584x1280 : S584x1280.ShapeCasts S584x1280
  bitsLt_bf16_f32 : FTy.bits .bf16 < FTy.bits .f32
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1280_S1280_0 : ∀ a, (![0] : Fin 1 → Nat) a + S1280.size a ≤ S1280.size a
  h_S1280 : 0 < S1280.numel
  shapeCasts_S1280_S1280 : S1280.ShapeCasts S1280
  shapeCasts_S1280_S1x1280 : S1280.ShapeCasts S1x1280
  broadcasts_S1x1280_S584x1280 : S1x1280.Broadcasts S584x1280
  slices_S4672x1280_S4616x1280_0_0 : S4672x1280.Slices ![0, 0] S4616x1280
  shapeCasts_S4616x1280_S8x577x16x80 : S4616x1280.ShapeCasts S8x577x16x80
  transposes_S8x577x16x80_S8x16x577x80_0_2_1_3 : S8x577x16x80.Transposes [0, 2, 1, 3] S8x16x577x80
  shapeCasts_S8x16x577x80_S128x577x80 : S8x16x577x80.ShapeCasts S128x577x80
  shapeCasts_S8x16x577x577_S128x577x577 : S8x16x577x577.ShapeCasts S128x577x577
  inb_S4x577x577_S4x577x577_0_0_0 : ∀ a, (![0, 0, 0] : Fin 3 → Nat) a + S4x577x577.size a ≤ S4x577x577.size a
  h_S4x577x577 : 0 < S4x577x577.numel
  shapeCasts_S4x577x577_S4x577x577 : S4x577x577.ShapeCasts S4x577x577
  reduces_S4x577x577_S4x577 : S4x577x577.Reduces [1] S4x577
  shapeCasts_S4x577_S4x1x577 : S4x577.ShapeCasts S4x1x577
  broadcasts_S4x1x577_S4x577x577 : S4x1x577.Broadcasts S4x577x577
  reduces_S4x577x577_S4x577_2 : S4x577x577.Reduces [2] S4x577
  shapeCasts_S4x577_S4x577x1 : S4x577.ShapeCasts S4x577x1
  broadcasts_S4x577x1_S4x577x577 : S4x577x1.Broadcasts S4x577x577
  transposes_S4x577x577_p0_2_1_S4x577x577 : S4x577x577.Transposes [0, 2, 1] S4x577x577
  inb_S4x577x80_S4x577x80_0_0_0 : ∀ a, (![0, 0, 0] : Fin 3 → Nat) a + S4x577x80.size a ≤ S4x577x80.size a
  h_S4x577x80 : 0 < S4x577x80.numel
  shapeCasts_S4x577x80_S4x577x80 : S4x577x80.ShapeCasts S4x577x80
  shapeCasts_S128x577x80_S8x16x577x80 : S128x577x80.ShapeCasts S8x16x577x80
  transposes_S8x16x577x80_S8x577x16x80_0_2_1_3 : S8x16x577x80.Transposes [0, 2, 1, 3] S8x577x16x80
  shapeCasts_S8x577x16x80_S4616x1280 : S8x577x16x80.ShapeCasts S4616x1280
  shapeCasts_S4616x1280_S8x577x1280 : S4616x1280.ShapeCasts S8x577x1280
  dot_S584x1280_S1280x1280_S584x1280_1_0_0_1_n_n_wf : DotDims.WF S584x1280 S1280x1280 S584x1280 [1] [0] [0] [1] [] []
  dot_S4x577x577_S4x577x80_S4x577x80_2_1_1_2_0_0_wf : DotDims.WF S4x577x577 S4x577x80 S4x577x80 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S584x1280.size a ≤ S4672x1280.size a
  hwx0_0 : ∀ i : grid0.Coords, EltTy.bits .f32 = 32 ∨ (Rect.block (s := S4672x1280) S584x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x1280.size a ≤ S1280x1280.size a
  hwx0_1 : ∀ i : grid0.Coords, EltTy.bits .f32 = 32 ∨ (Rect.block (s := S1280x1280) S1280x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280.size a ≤ S1280.size a
  hwx0_2 : ∀ i : grid0.Coords, EltTy.bits .f32 = 32 ∨ (Rect.block (s := S1280) S1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S584x1280.size a ≤ S4672x1280.size a
  hwx0_3 : ∀ i : grid0.Coords, EltTy.bits .f32 = 32 ∨ (Rect.block (s := S4672x1280) S584x1280.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x577x577.size a ≤ S128x577x577.size a
  hwx1_0 : ∀ i : grid1.Coords, EltTy.bits .f32 = 32 ∨ (Rect.block (s := S128x577x577) S4x577x577.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x577x80.size a ≤ S128x577x80.size a
  hwx1_1 : ∀ i : grid1.Coords, EltTy.bits .f32 = 32 ∨ (Rect.block (s := S128x577x80) S4x577x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x577x577.size a ≤ S128x577x577.size a
  hwx1_2 : ∀ i : grid1.Coords, EltTy.bits .f32 = 32 ∨ (Rect.block (s := S128x577x577) S4x577x577.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x577x80.size a ≤ S128x577x80.size a
  hwx1_3 : ∀ i : grid1.Coords, EltTy.bits .f32 = 32 ∨ (Rect.block (s := S128x577x80) S4x577x80.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S584x1280.size a ≤ S4672x1280.size a
  hwx2_0 : ∀ i : grid2.Coords, EltTy.bits .f32 = 32 ∨ (Rect.block (s := S4672x1280) S584x1280.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1280x1280.size a ≤ S1280x1280.size a
  hwx2_1 : ∀ i : grid2.Coords, EltTy.bits .f32 = 32 ∨ (Rect.block (s := S1280x1280) S1280x1280.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1280.size a ≤ S1280.size a
  hwx2_2 : ∀ i : grid2.Coords, EltTy.bits .f32 = 32 ∨ (Rect.block (s := S1280) S1280.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S584x1280.size a ≤ S4672x1280.size a
  hwx2_3 : ∀ i : grid2.Coords, EltTy.bits .f32 = 32 ∨ (Rect.block (s := S4672x1280) S584x1280.size (cc2_transform_3 i) (hinb2_3 i)).WholeWords (EltTy.packing .f32)

variable [Facts₀]

def dot_S584x1280_S1280x1280_S584x1280_1_0_0_1_n_n : DotDims S584x1280 S1280x1280 S584x1280 where
  lhsContracting := [1]
  rhsContracting := [0]
  lhsNonContracting := [0]
  rhsNonContracting := [1]
  lhsBatch := []
  rhsBatch := []
  wf := dot_S584x1280_S1280x1280_S584x1280_1_0_0_1_n_n_wf
def dot_S4x577x577_S4x577x80_S4x577x80_2_1_1_2_0_0 : DotDims S4x577x577 S4x577x80 S4x577x80 where
  lhsContracting := [2]
  rhsContracting := [1]
  lhsNonContracting := [1]
  rhsNonContracting := [2]
  lhsBatch := [0]
  rhsBatch := [0]
  wf := dot_S4x577x577_S4x577x80_S4x577x80_2_1_1_2_0_0_wf

abbrev win0_0 : Pipeline.Window sig grid0 :=
  Pipeline.Window.ofSpec (Memref.whole main_v4) S584x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S584x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S4x577x577.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4x577x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S4x577x577.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_1) S4x577x80.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S584x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1280x1280.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1280.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S584x1280.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x577x1280 : Shape := ⟨3, ![8, 577, 1280]⟩
abbrev S8x16x577x577 : Shape := ⟨4, ![8, 16, 577, 577]⟩
abbrev S3840x1280 : Shape := ⟨2, ![3840, 1280]⟩
abbrev S3840 : Shape := ⟨1, ![3840]⟩
abbrev S1280x1280 : Shape := ⟨2, ![1280, 1280]⟩
abbrev S1280 : Shape := ⟨1, ![1280]⟩
abbrev S8x577x3840 : Shape := ⟨3, ![8, 577, 3840]⟩
abbrev S1x1x3840 : Shape := ⟨3, ![1, 1, 3840]⟩
abbrev S8x577x16x80 : Shape := ⟨4, ![8, 577, 16, 80]⟩
abbrev S8x16x577x80 : Shape := ⟨4, ![8, 16, 577, 80]⟩
abbrev S128x577x80 : Shape := ⟨3, ![128, 577, 80]⟩
abbrev S_ : Shape := ⟨0, ![]⟩
abbrev S8x16x577 : Shape := ⟨3, ![8, 16, 577]⟩
abbrev S8x16x1x577 : Shape := ⟨4, ![8, 16, 1, 577]⟩
abbrev S8x16x577x1 : Shape := ⟨4, ![8, 16, 577, 1]⟩
abbrev S128x577x577 : Shape := ⟨3, ![128, 577, 577]⟩
abbrev S1x1x1280 : Shape := ⟨3, ![1, 1, 1280]⟩

abbrev nBuf : Space → Nat
  | .hbm => 56
  | .vmem => 0
  | .smem => 0
  | _ => 0

abbrev bufTy : (tb : Table) → Fin (tcTables nBuf tb) → BufTy
  | .hbm, ⟨0, _⟩ => ⟨S8x577x1280, .f32⟩
  | .hbm, ⟨1, _⟩ => ⟨S8x16x577x577, .f32⟩
  | .hbm, ⟨2, _⟩ => ⟨S3840x1280, .f32⟩
  | .hbm, ⟨3, _⟩ => ⟨S3840, .f32⟩
  | .hbm, ⟨4, _⟩ => ⟨S1280x1280, .f32⟩
  | .hbm, ⟨5, _⟩ => ⟨S1280, .f32⟩
  | .hbm, ⟨6, _⟩ => ⟨S8x577x3840, .f32⟩
  | .hbm, ⟨7, _⟩ => ⟨S1x1x3840, .f32⟩
  | .hbm, ⟨8, _⟩ => ⟨S8x577x3840, .f32⟩
  | .hbm, ⟨9, _⟩ => ⟨S8x577x3840, .f32⟩
  | .hbm, ⟨10, _⟩ => ⟨S8x577x1280, .f32⟩
  | .hbm, ⟨11, _⟩ => ⟨S8x577x1280, .f32⟩
  | .hbm, ⟨12, _⟩ => ⟨S8x577x1280, .f32⟩
  | .hbm, ⟨13, _⟩ => ⟨S8x577x16x80, .f32⟩
  | .hbm, ⟨14, _⟩ => ⟨S8x16x577x80, .f32⟩
  | .hbm, ⟨15, _⟩ => ⟨S128x577x80, .f32⟩
  | .hbm, ⟨16, _⟩ => ⟨S_, .f32⟩
  | .hbm, ⟨17, _⟩ => ⟨S8x16x577, .f32⟩
  | .hbm, ⟨18, _⟩ => ⟨S8x16x1x577, .f32⟩
  | .hbm, ⟨19, _⟩ => ⟨S8x16x577x577, .f32⟩
  | .hbm, ⟨20, _⟩ => ⟨S8x16x577x577, .f32⟩
  | .hbm, ⟨21, _⟩ => ⟨S_, .f32⟩
  | .hbm, ⟨22, _⟩ => ⟨S8x16x577, .f32⟩
  | .hbm, ⟨23, _⟩ => ⟨S8x16x577x1, .f32⟩
  | .hbm, ⟨24, _⟩ => ⟨S8x16x577x577, .f32⟩
  | .hbm, ⟨25, _⟩ => ⟨S8x16x577x577, .f32⟩
  | .hbm, ⟨26, _⟩ => ⟨S8x16x577x577, .f32⟩
  | .hbm, ⟨27, _⟩ => ⟨S8x16x577x577, .f32⟩
  | .hbm, ⟨28, _⟩ => ⟨S_, .f32⟩
  | .hbm, ⟨29, _⟩ => ⟨S8x16x577x577, .f32⟩
  | .hbm, ⟨30, _⟩ => ⟨S8x16x577x577, .f32⟩
  | .hbm, ⟨31, _⟩ => ⟨S_, .f32⟩
  | .hbm, ⟨32, _⟩ => ⟨S8x16x577, .f32⟩
  | .hbm, ⟨33, _⟩ => ⟨S8x16x1x577, .f32⟩
  | .hbm, ⟨34, _⟩ => ⟨S_, .f32⟩
  | .hbm, ⟨35, _⟩ => ⟨S8x16x1x577, .f32⟩
  | .hbm, ⟨36, _⟩ => ⟨S8x16x1x577, .f32⟩
  | .hbm, ⟨37, _⟩ => ⟨S8x16x577x577, .f32⟩
  | .hbm, ⟨38, _⟩ => ⟨S8x16x577x577, .f32⟩
  | .hbm, ⟨39, _⟩ => ⟨S_, .f32⟩
  | .hbm, ⟨40, _⟩ => ⟨S8x16x577x577, .f32⟩
  | .hbm, ⟨41, _⟩ => ⟨S8x16x577x577, .f32⟩
  | .hbm, ⟨42, _⟩ => ⟨S_, .f32⟩
  | .hbm, ⟨43, _⟩ => ⟨S8x16x577, .f32⟩
  | .hbm, ⟨44, _⟩ => ⟨S8x16x577x1, .f32⟩
  | .hbm, ⟨45, _⟩ => ⟨S8x16x577x577, .f32⟩
  | .hbm, ⟨46, _⟩ => ⟨S8x16x577x577, .f32⟩
  | .hbm, ⟨47, _⟩ => ⟨S128x577x577, .f32⟩
  | .hbm, ⟨48, _⟩ => ⟨S128x577x80, .f32⟩
  | .hbm, ⟨49, _⟩ => ⟨S8x16x577x80, .f32⟩
  | .hbm, ⟨50, _⟩ => ⟨S8x577x16x80, .f32⟩
  | .hbm, ⟨51, _⟩ => ⟨S8x577x1280, .f32⟩
  | .hbm, ⟨52, _⟩ => ⟨S8x577x1280, .f32⟩
  | .hbm, ⟨53, _⟩ => ⟨S1x1x1280, .f32⟩
  | .hbm, ⟨54, _⟩ => ⟨S8x577x1280, .f32⟩
  | .hbm, ⟨55, _⟩ => ⟨S8x577x1280, .f32⟩
  | _, _ => ⟨S8x577x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  bcast_S3840_S1x1x3840_2 : S3840.BroadcastsInDim S1x1x3840 (![2] : Fin 1 → Fin S1x1x3840.rank)
  bcast_S1x1x3840_S8x577x3840_0_1_2 : S1x1x3840.BroadcastsInDim S8x577x3840 (![0, 1, 2] : Fin 3 → Fin S8x577x3840.rank)
  slices_S8x577x3840_S8x577x1280_0_0_0 : S8x577x3840.Slices ![0, 0, 0] S8x577x1280
  slices_S8x577x3840_S8x577x1280_0_0_1280 : S8x577x3840.Slices ![0, 0, 1280] S8x577x1280
  slices_S8x577x3840_S8x577x1280_0_0_2560 : S8x577x3840.Slices ![0, 0, 2560] S8x577x1280
  shapeCasts_S8x577x1280_S8x577x16x80 : S8x577x1280.ShapeCasts S8x577x16x80
  transposes_S8x577x16x80_S8x16x577x80_0_2_1_3 : S8x577x16x80.Transposes [0, 2, 1, 3] S8x16x577x80
  shapeCasts_S8x16x577x80_S128x577x80 : S8x16x577x80.ShapeCasts S128x577x80
  reducesTo_S8x16x577x577_S8x16x577_d2 : S8x16x577x577.ReducesTo [2] S8x16x577
  h_S_ : 0 < S_.numel
  bcast_S8x16x577_S8x16x1x577_0_1_3 : S8x16x577.BroadcastsInDim S8x16x1x577 (![0, 1, 3] : Fin 3 → Fin S8x16x1x577.rank)
  bcast_S8x16x1x577_S8x16x577x577_0_1_2_3 : S8x16x1x577.BroadcastsInDim S8x16x577x577 (![0, 1, 2, 3] : Fin 4 → Fin S8x16x577x577.rank)
  reducesTo_S8x16x577x577_S8x16x577_d3 : S8x16x577x577.ReducesTo [3] S8x16x577
  bcast_S8x16x577_S8x16x577x1_0_1_2 : S8x16x577.BroadcastsInDim S8x16x577x1 (![0, 1, 2] : Fin 3 → Fin S8x16x577x1.rank)
  bcast_S8x16x577x1_S8x16x577x577_0_1_2_3 : S8x16x577x1.BroadcastsInDim S8x16x577x577 (![0, 1, 2, 3] : Fin 4 → Fin S8x16x577x577.rank)
  transposes_S8x16x577x577_S8x16x577x577_0_1_3_2 : S8x16x577x577.Transposes [0, 1, 3, 2] S8x16x577x577
  bcast_S_S8x16x577x577 : S_.BroadcastsInDim S8x16x577x577 (![] : Fin 0 → Fin S8x16x577x577.rank)
  bcast_S_S8x16x1x577 : S_.BroadcastsInDim S8x16x1x577 (![] : Fin 0 → Fin S8x16x1x577.rank)
  shapeCasts_S8x16x577x577_S128x577x577 : S8x16x577x577.ShapeCasts S128x577x577
  shapeCasts_S128x577x80_S8x16x577x80 : S128x577x80.ShapeCasts S8x16x577x80
  transposes_S8x16x577x80_S8x577x16x80_0_2_1_3 : S8x16x577x80.Transposes [0, 2, 1, 3] S8x577x16x80
  shapeCasts_S8x577x16x80_S8x577x1280 : S8x577x16x80.ShapeCasts S8x577x1280
  bcast_S1280_S1x1x1280_2 : S1280.BroadcastsInDim S1x1x1280 (![2] : Fin 1 → Fin S1x1x1280.rank)
  bcast_S1x1x1280_S8x577x1280_0_1_2 : S1x1x1280.BroadcastsInDim S8x577x1280 (![0, 1, 2] : Fin 3 → Fin S8x577x1280.rank)
  dot_S8x577x1280_S3840x1280_S8x577x3840_2_1_01_0_n_n_wf : DotDims.WF S8x577x1280 S3840x1280 S8x577x3840 [2] [1] [0, 1] [0] [] []
  dot_S128x577x577_S128x577x80_S128x577x80_2_1_1_2_0_0_wf : DotDims.WF S128x577x577 S128x577x80 S128x577x80 [2] [1] [1] [2] [0] [0]
  dot_S8x577x1280_S1280x1280_S8x577x1280_2_1_01_0_n_n_wf : DotDims.WF S8x577x1280 S1280x1280 S8x577x1280 [2] [1] [0, 1] [0] [] []

variable [Facts₀]

def dot_S8x577x1280_S3840x1280_S8x577x3840_2_1_01_0_n_n : DotDims S8x577x1280 S3840x1280 S8x577x3840 where
  lhsContracting := [2]
  rhsContracting := [1]
  lhsNonContracting := [0, 1]
  rhsNonContracting := [0]
  lhsBatch := []
  rhsBatch := []
  wf := dot_S8x577x1280_S3840x1280_S8x577x3840_2_1_01_0_n_n_wf
def dot_S128x577x577_S128x577x80_S128x577x80_2_1_1_2_0_0 : DotDims S128x577x577 S128x577x80 S128x577x80 where
  lhsContracting := [2]
  rhsContracting := [1]
  lhsNonContracting := [1]
  rhsNonContracting := [2]
  lhsBatch := [0]
  rhsBatch := [0]
  wf := dot_S128x577x577_S128x577x80_S128x577x80_2_1_1_2_0_0_wf
def dot_S8x577x1280_S1280x1280_S8x577x1280_2_1_01_0_n_n : DotDims S8x577x1280 S1280x1280 S8x577x1280 where
  lhsContracting := [2]
  rhsContracting := [1]
  lhsNonContracting := [0, 1]
  rhsNonContracting := [0]
  lhsBatch := []
  rhsBatch := []
  wf := dot_S8x577x1280_S1280x1280_S8x577x1280_2_1_01_0_n_n_wf

class Facts : Prop extends Facts₀ where

variable [Facts]
-- ==== Proof.Spec.lean ====
/-
  The two programs' results as functions of the argument arrays over the extended reals, index by index.

  A projection row: `(∑ d, a[r, d] · w[d, e]) + b[e]`.
  The mask pipeline on one 577 × 577 matrix `a`: divide each entry by its column's sum; divide each entry by its
  row's sum; average with the transpose; subtract from each entry one fifth (the float `0.2`) of its column's maximum;
  clamp at zero from below; divide each entry by its row's sum. The attention product of a head `n`:
  `∑ k, weights[n, i, k] · v[n, k, d]`.
-/
import Idealize.ShloMosaic.PureOps.Ideal
import Idealize.ShloMosaic.Lib.ValueIdx

noncomputable section

open scoped BigOperators

namespace Cert.Spec

open Idealize.ShloMosaic Idealize.ShloMosaic.ValueIdx

/-- A 577 × 577 matrix of extended reals: one head's mask. -/
abbrev Mat : Type := Fin 577 → Fin 577 → EReal

/-- Each entry over the sum of its column. -/
def colNorm (a : Mat) : Mat := fun i j => Ideal.div (a i j) (∑ k : Fin 577, a k j)

/-- Each entry over the sum of its row. -/
def rowNorm (a : Mat) : Mat := fun i j => Ideal.div (a i j) (∑ k : Fin 577, a i k)

/-- The mean of a matrix and its transpose (the factor is the float one half). -/
def symHalf (a : Mat) : Mat := fun i j => (a i j + a j i) * Ideal.ofBits .f32 0x3F000000#32

/-- Column `j`'s maximum, folded from minus infinity. -/
def colMax (a : Mat) (j : Fin 577) : EReal :=
  (Finset.univ : Finset (Fin 577)).fold max (Ideal.ofBits .f32 0xFF800000#32) (fun k => a k j)

/-- Each entry less the float `0.2` times its column's maximum. -/
def colMaxSub (a : Mat) : Mat := fun i j => a i j - colMax a j * Ideal.ofBits .f32 0x3E4CCCCD#32

/-- Each entry clamped at zero from below. -/
def relu (a : Mat) : Mat := fun i j => max (a i j) (Ideal.ofBits .f32 0x00000000#32)

/-- The whole mask pipeline on one head's matrix. -/
def maskPipe (a : Mat) : Mat := rowNorm (relu (colMaxSub (symHalf (rowNorm (colNorm a)))))

/-- Head `n` of a stack of matrices. -/
abbrev head {N : Nat} (x : (⟨3, ![N, 577, 577]⟩ : Shape).Idx → EReal) (n : Fin N) : Mat := fun p q => x (ix3 n p q)

/-- The attention weights: the mask pipeline on every head. -/
def awSpec (msk : (⟨3, ![128, 577, 577]⟩ : Shape).Idx → EReal) : (⟨3, ![128, 577, 577]⟩ : Shape).Idx → EReal :=
  fun i => maskPipe (head msk (i 0)) (i 1) (i 2)

/-- The attention product: head by head, weights times values. -/
def aoSpec (msk : (⟨3, ![128, 577, 577]⟩ : Shape).Idx → EReal) (v : (⟨3, ![128, 577, 80]⟩ : Shape).Idx → EReal) :
    (⟨3, ![128, 577, 80]⟩ : Shape).Idx → EReal :=
  fun i => ∑ k : Fin 577, awSpec msk (ix3 (i 0) (i 1) k) * v (ix3 (i 0) k (i 2))

/-- A projection over the 4672 padded rows: row `r` of `a` against column `e` of `w`, plus `b[e]`. -/
def mmBias (a : (⟨2, ![4672, 1280]⟩ : Shape).Idx → EReal) (w : (⟨2, ![1280, 1280]⟩ : Shape).Idx → EReal)
    (b : (⟨1, ![1280]⟩ : Shape).Idx → EReal) : (⟨2, ![4672, 1280]⟩ : Shape).Idx → EReal :=
  fun i => (∑ k : Fin 1280, a (ix2 (i 0) k) * w (ix2 k (i 1))) + b (ix1 (i 1))

end Cert.Spec

end
-- ==== Proof.KStream.lean ====
/-
  The kernel program's results as ONE term of its argument arrays: the three regions' whole-array functions
  (the projection `Spec.mmBias`, the attention weights `Spec.awSpec`, the attention product `Spec.aoSpec`) threaded
  through the layout operations @main applies between them — the slice of the value rows of the input projection's
  weight and bias, the flattening of (batch, position) to 4616 rows, the padding to 4672 rows and the slice back,
  and the split of the 1280 features into 16 heads of 80 with the head axis moved beside the batch.
-/
import proofs.«165519_j29884382445590_1_alg».proof.Proof.Gen.KernelIdeal
import proofs.«165519_j29884382445590_1_alg».proof.Proof.Spec

noncomputable section

open scoped BigOperators

namespace Cert.KernelIdeal.Stream

open Cert.KernelIdeal Cert.KernelIdeal.Facts₀ Idealize.ShloMosaic Idealize.ShloMosaic.ValueIdx

/-- A projection of 4616 rows, computed as the kernel does: pad the rows to 4672 with zeros, project every padded row
    against the TRANSPOSED weight (so row `e` of `w` meets row `r` of `a`), add the bias, keep the first 4616 rows. -/
def proj (a : Vec Ideal S4616x1280 .f32) (w : Vec Ideal S1280x1280 .f32) (b : Vec Ideal S1280 .f32) : Vec Ideal S4616x1280 .f32 :=
  extractStridedSlice S4616x1280 ![0, 0]
    (Cert.Spec.mmBias
      (pad S4672x1280 ![0, 0] ![56, 0] ![0, 0] a (sitofp (F := Ideal) .f32 (constantI S_ 32 0#32)) pads_S4616x1280_S4672x1280_0560_000 h_S_)
      (transpose S1280x1280 [1, 0] w transposes_S1280x1280_S1280x1280_1_0) b)
    slices_S4672x1280_S4616x1280_0_0

/-- The values, head by head: the value third of the input projection of every (batch, position) row, its 1280
    features split into 16 heads of 80, the head axis moved beside the batch, (batch, head) flattened to 128. -/
def kV9 (x0 : Vec Ideal S8x577x1280 .f32) (x2 : Vec Ideal S3840x1280 .f32) (x3 : Vec Ideal S3840 .f32) : Vec Ideal S128x577x80 .f32 :=
  shapeCast S128x577x80
    (transpose S8x16x577x80 [0, 2, 1, 3]
      (shapeCast S8x577x16x80
        (proj (shapeCast S4616x1280 x0 shapeCasts_S8x577x1280_S4616x1280)
          (extractStridedSlice S1280x1280 ![2560, 0] x2 slices_S3840x1280_S1280x1280_2560_0)
          (extractStridedSlice S1280 ![2560] x3 slices_S3840_S1280_2560))
        shapeCasts_S4616x1280_S8x577x16x80)
      transposes_S8x577x16x80_S8x16x577x80_0_2_1_3)
    shapeCasts_S8x16x577x80_S128x577x80

/-- The attention weights of the 128 (batch, head) pairs. -/
def kAw (x1 : Vec Ideal S8x16x577x577 .f32) : Vec Ideal S128x577x577 .f32 :=
  Cert.Spec.awSpec (shapeCast S128x577x577 x1 shapeCasts_S8x16x577x577_S128x577x577)

/-- The attention product of the 128 (batch, head) pairs. -/
def kAo (x0 : Vec Ideal S8x577x1280 .f32) (x1 : Vec Ideal S8x16x577x577 .f32) (x2 : Vec Ideal S3840x1280 .f32) (x3 : Vec Ideal S3840 .f32) :
    Vec Ideal S128x577x80 .f32 :=
  Cert.Spec.aoSpec (shapeCast S128x577x577 x1 shapeCasts_S8x16x577x577_S128x577x577) (kV9 x0 x2 x3)

/-- The output: the heads moved back beside the features and joined to 1280, every (batch, position) row
    projected by the output weight and bias. -/
def kOut (x0 : Vec Ideal S8x577x1280 .f32) (x1 : Vec Ideal S8x16x577x577 .f32) (x2 : Vec Ideal S3840x1280 .f32) (x3 : Vec Ideal S3840 .f32)
    (x4 : Vec Ideal S1280x1280 .f32) (x5 : Vec Ideal S1280 .f32) : Vec Ideal S8x577x1280 .f32 :=
  shapeCast S8x577x1280
    (proj
      (shapeCast S4616x1280
        (transpose S8x577x16x80 [0, 2, 1, 3]
          (shapeCast S8x16x577x80 (kAo x0 x1 x2 x3) shapeCasts_S128x577x80_S8x16x577x80)
          transposes_S8x16x577x80_S8x577x16x80_0_2_1_3)
        shapeCasts_S8x577x16x80_S4616x1280)
      x4 x5)
    shapeCasts_S4616x1280_S8x577x1280

end Cert.KernelIdeal.Stream

end
-- ==== Proof.KReg0.lean ====
/-
  A projection region of the kernel program, read as a value. The region's grid has 8 points; point `t` takes rows
  584·t … 584·t + 583 of its input array, the whole weight and the whole bias, and writes the same rows of its output.
  Over the extended reals the body's result at row `p` of the block and feature `q` is
  `∑ k, block[p, k] · weight[k, q] + bias[q]` (the casts to bf16 are the identity, the matrix product into a zero
  accumulator is the plain sum), so point `t` writes back rows 584·t … of `Spec.mmBias` of the arrays the region
  found; the 8 blocks tile the 4672 rows (row `r` lies in block `r / 584`), hence the output array ends as
  `Spec.mmBias` of the three input arrays.
-/
import proofs.«165519_j29884382445590_1_alg».proof.Proof.Gen.KernelIdeal.Frame
import proofs.«165519_j29884382445590_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The contraction's index maps, axis by axis -/

/-- The left operand's row is the result's row. -/
theorem lhs_axis0 (i : S584x1280.Idx) (q : dot_S584x1280_S1280x1280_S584x1280_1_0_0_1_n_n.contr.Idx) :
    (dot_S584x1280_S1280x1280_S584x1280_1_0_0_1_n_n.lhsIdx i q 0).val = (i 0).val := by
  unfold DotDims.lhsIdx
  rw [dif_neg (show ¬(0 : Fin S584x1280.rank) ∈ dot_S584x1280_S1280x1280_S584x1280_1_0_0_1_n_n.lhsBatch by decide), dif_pos (show (0 : Fin S584x1280.rank) ∈ dot_S584x1280_S1280x1280_S584x1280_1_0_0_1_n_n.lhsNonContracting by decide)]
  rfl

/-- The left operand's column is the contraction position. -/
theorem lhs_axis1 (i : S584x1280.Idx) (q : dot_S584x1280_S1280x1280_S584x1280_1_0_0_1_n_n.contr.Idx) :
    (dot_S584x1280_S1280x1280_S584x1280_1_0_0_1_n_n.lhsIdx i q 1).val = (q ⟨0, by decide⟩).val :=
  dot_S584x1280_S1280x1280_S584x1280_1_0_0_1_n_n.lhsIdx_val_of_single rfl i q

/-- The right operand's row is the contraction position. -/
theorem rhs_axis0 (i : S584x1280.Idx) (q : dot_S584x1280_S1280x1280_S584x1280_1_0_0_1_n_n.contr.Idx) :
    (dot_S584x1280_S1280x1280_S584x1280_1_0_0_1_n_n.rhsIdx i q 0).val = (q ⟨0, by decide⟩).val :=
  dot_S584x1280_S1280x1280_S584x1280_1_0_0_1_n_n.rhsIdx_val_of_single rfl i q

/-- The right operand's column is the result's column. -/
theorem rhs_axis1 (i : S584x1280.Idx) (q : dot_S584x1280_S1280x1280_S584x1280_1_0_0_1_n_n.contr.Idx) :
    (dot_S584x1280_S1280x1280_S584x1280_1_0_0_1_n_n.rhsIdx i q 1).val = (i 1).val := by
  unfold DotDims.rhsIdx
  rw [dif_neg (show ¬(1 : Fin S1280x1280.rank) ∈ dot_S584x1280_S1280x1280_S584x1280_1_0_0_1_n_n.rhsBatch by decide), dif_pos (show (1 : Fin S1280x1280.rank) ∈ dot_S584x1280_S1280x1280_S584x1280_1_0_0_1_n_n.rhsNonContracting by decide)]
  rfl

/-- The matrix product with a zero accumulator, at an entry: the sum over the shared axis. -/
theorem matmul_entry (a : FVec Ideal S584x1280 .bf16) (b : FVec Ideal S1280x1280 .bf16) (p : Fin 584) (q : Fin 1280) :
    FloatOps.matmul dot_S584x1280_S1280x1280_S584x1280_1_0_0_1_n_n none a b (constant S584x1280 .f32 0x00000000#32) (ix2 p q)
      = ∑ k : Fin 1280, a (ix2 p k) * b (ix2 k q) := by
  rw [Ideal.matmul_constant_zero_apply, ← Equiv.sum_comp (contrEquiv1 dot_S584x1280_S1280x1280_S584x1280_1_0_0_1_n_n 1280 rfl rfl).symm]
  refine Finset.sum_congr rfl fun k _ => ?_
  have hk := contrEquiv1_symm_val dot_S584x1280_S1280x1280_S584x1280_1_0_0_1_n_n 1280 rfl rfl k
  have el : dot_S584x1280_S1280x1280_S584x1280_1_0_0_1_n_n.lhsIdx (ix2 p q) ((contrEquiv1 dot_S584x1280_S1280x1280_S584x1280_1_0_0_1_n_n 1280 rfl rfl).symm k) = ix2 p k := funext fun a => Fin.ext (by
    match a with
    | ⟨0, _⟩ => exact lhs_axis0 _ _
    | ⟨1, _⟩ => exact (lhs_axis1 _ _).trans hk)
  have er : dot_S584x1280_S1280x1280_S584x1280_1_0_0_1_n_n.rhsIdx (ix2 p q) ((contrEquiv1 dot_S584x1280_S1280x1280_S584x1280_1_0_0_1_n_n 1280 rfl rfl).symm k) = ix2 k q := funext fun a => Fin.ext (by
    match a with
    | ⟨0, _⟩ => exact (rhs_axis0 _ _).trans hk
    | ⟨1, _⟩ => exact rhs_axis1 _ _)
  rw [el, er]

/-- The bias row, given a leading unit axis and repeated down the 584 rows, at an entry. -/
theorem bias_entry (x2 : Vec Ideal S1280 .f32) (p : Fin 584) (q : Fin 1280) :
    broadcastTo S584x1280 (shapeCast S1x1280 (shapeCast S1280 x2 shapeCasts_S1280_S1280) shapeCasts_S1280_S1x1280) broadcasts_S1x1280_S584x1280 (ix2 p q)
      = x2 (ix1 q) := by
  rw [shapeCast_self]
  rw [broadcastTo_apply _ broadcasts_S1x1280_S584x1280 (ix2 p q) (ix2 (0 : Fin 1) q) (fun a => match a with
    | ⟨0, _⟩ => by show 0 = if (1 : Nat) = 1 then 0 else p.val; rw [if_pos rfl]
    | ⟨1, _⟩ => by show q.val = if (1280 : Nat) = 1 then 0 else q.val; rw [if_neg (by decide)])]
  refine (shapeCast_apply x2 shapeCasts_S1280_S1x1280 (ix2 (0 : Fin 1) q) (ix1 q) ?_)
  rw [Shape.rowMajor_val_one, Shape.rowMajor_val_two]
  show q.val = 0 * 1280 + q.val
  omega

/-- The first projection's body at an entry of its 584-row block: row `p` of the block against column `q` of the weight, plus the bias at `q`. -/
theorem pay (x0 : Vec Ideal S584x1280 .f32) (x1 : Vec Ideal S1280x1280 .f32) (x2 : Vec Ideal S1280 .f32) (p : Fin 584) (q : Fin 1280) :
    k0_pay1 (F := Ideal) x0 x1 x2 (ix2 p q) = (∑ k : Fin 1280, x0 (ix2 p k) * x1 (ix2 k q)) + x2 (ix1 q) := by
  unfold k0_pay1
  rw [addf_apply, bias_entry, shapeCast_self, shapeCast_self]
  refine congrArg (· + x2 (ix1 q)) ?_
  exact matmul_entry _ _ p q

variable (V : (c : Dev nD) → (b : Ref sig .tc) → Buf (Elt Ideal) ((c : Thread nD τ).loc b))

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the input rows move with the output rows, which are block `t` at point `t`; the weight and the bias stay at block 0; no window moves along the columns. -/
theorem idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- The input block at point `t`, row `p`, column `k`: the input array at the output block's row and column `k`. -/
theorem read_in (c : Dev nD) (t : Fin cfg0.N) (p : Fin 584) (q k : Fin 1280) :
    iblk0 V c 0 t (ix2 p k) = V c main_v4 (ix2 (((cfg0.win 3).blk t).view.emb (ix2 p q) 0) k) := by
  obtain ⟨e0, e1, e2, e3, e4, e5, e6⟩ := idx_facts t
  show V c main_v4 (((cfg0.win 0).blk t).view.emb (ix2 p k)) = V c main_v4 _
  refine congrArg (V c main_v4) (funext fun a => Fin.ext ?_)
  match a with
  | ⟨0, _⟩ => show win0_0.index t (0 : Fin 2) * 584 + 1 * p.val = win0_3.index t (0 : Fin 2) * 584 + 1 * p.val; omega
  | ⟨1, _⟩ => show win0_0.index t (1 : Fin 2) * 1280 + 1 * k.val = k.val; omega

/-- The weight block at any point is the weight array. -/
theorem read_w (c : Dev nD) (t : Fin cfg0.N) (p : Fin 584) (q k : Fin 1280) :
    iblk0 V c 1 t (ix2 k q) = V c main_v3 (ix2 k (((cfg0.win 3).blk t).view.emb (ix2 p q) 1)) := by
  obtain ⟨e0, e1, e2, e3, e4, e5, e6⟩ := idx_facts t
  show V c main_v3 (((cfg0.win 1).blk t).view.emb (ix2 k q)) = V c main_v3 _
  refine congrArg (V c main_v3) (funext fun a => Fin.ext ?_)
  match a with
  | ⟨0, _⟩ => show win0_1.index t (0 : Fin 2) * 1280 + 1 * k.val = k.val; omega
  | ⟨1, _⟩ => show win0_1.index t (1 : Fin 2) * 1280 + 1 * q.val = win0_3.index t (1 : Fin 2) * 1280 + 1 * q.val; omega

/-- The bias block at any point is the bias array. -/
theorem read_b (c : Dev nD) (t : Fin cfg0.N) (p : Fin 584) (q : Fin 1280) :
    iblk0 V c 2 t (ix1 q) = V c main_v1 (ix1 (((cfg0.win 3).blk t).view.emb (ix2 p q) 1)) := by
  obtain ⟨e0, e1, e2, e3, e4, e5, e6⟩ := idx_facts t
  show V c main_v1 (((cfg0.win 2).blk t).view.emb (ix1 q)) = V c main_v1 _
  refine congrArg (V c main_v1) (funext fun a => Fin.ext ?_)
  match a with
  | ⟨0, _⟩ => show win0_2.index t (0 : Fin 1) * 1280 + 1 * q.val = win0_3.index t (1 : Fin 2) * 1280 + 1 * q.val; omega

/-- The projection at an entry. -/
theorem mmBias_entry (a : (⟨2, ![4672, 1280]⟩ : Shape).Idx → EReal) (w : (⟨2, ![1280, 1280]⟩ : Shape).Idx → EReal)
    (b : (⟨1, ![1280]⟩ : Shape).Idx → EReal) (i : (⟨2, ![4672, 1280]⟩ : Shape).Idx) :
    Cert.Spec.mmBias a w b i = (∑ k : Fin 1280, a (ix2 (i 0) k) * w (ix2 k (i 1))) + b (ix1 (i 1)) := rfl

/-- The body's result on the blocks of point `t`, at an entry, is the projection of the arrays at that entry of block `t`. -/
theorem block_entry (c : Dev nD) (t : Fin cfg0.N) (p : Fin 584) (q : Fin 1280) :
    k0_pay1 (F := Ideal) (iblk0 V c 0 t) (iblk0 V c 1 t) (iblk0 V c 2 t) (ix2 p q)
      = Cert.Spec.mmBias (V c main_v4) (V c main_v3) (V c main_v1) (((cfg0.win 3).blk t).view.emb (ix2 p q)) := by
  rw [pay, read_b V c t p q, mmBias_entry]
  refine congrArg (· + _) (Finset.sum_congr rfl fun k _ => ?_)
  rw [read_in V c t p q k, read_w V c t p q k]

/-- What point `t` writes back is block `t` of the projection of the arrays the region found. -/
theorem flushed_eq (c : Dev nD) (t : Fin cfg0.N) :
    (dat0 (F := Ideal) V c).flushed 3 t = ((cfg0.win 3).blk t).view.read (Elt Ideal) (Cert.Spec.mmBias (V c main_v4) (V c main_v3) (V c main_v1)) := by
  show (cfg0.win 3).cut (grid0.coords t) ((dat0 (F := Ideal) V c).after 3 t) = _
  rw [after0_3]
  unfold out0_3
  rw [View.canon_unit_zero zero2]
  simp only [View.ld_unit_zero (S := S584x1280) zero2, View.ld_unit_zero (S := S1280x1280) zero2, View.ld_unit_zero (S := S1280) zero1]
  funext j
  show k0_pay1 (F := Ideal) (iblk0 V c 0 t) (iblk0 V c 1 t) (iblk0 V c 2 t) j = Cert.Spec.mmBias (V c main_v4) (V c main_v3) (V c main_v1) (((cfg0.win 3).blk t).view.emb j)
  rw [eq_ix2 (n0 := 584) (n1 := 1280) j]
  exact block_entry V c t (j 0) (j 1)

/-- An index of the array is in point `t`'s block iff each coordinate is in the block's range on its axis. -/
theorem mem_blk (t : Fin cfg0.N) (i : S4672x1280.Idx) :
    i ∈ ((cfg0.win 3).blk t).view.set ↔ ∀ a : Fin 2, win0_3.index t a * S584x1280.size a ≤ (i a).val ∧ (i a).val < win0_3.index t a * S584x1280.size a + S584x1280.size a := by
  show i ∈ ((View.whole main_v5).slice (win0_3.rect t)).set ↔ _
  rw [View.set_slice_whole, Rect.mem_set_unit]
  exact Iff.rfl

/-- Every index of the output array is in the block of the point its row falls in: row `r` is in block `r / 584`. -/
theorem cover (i : S4672x1280.Idx) :
    ∃ t : Fin cfg0.N, (cfg0.win 3).flush t = true ∧ i ∈ ((cfg0.win 3).blk t).view.set := by
  have hi0 : (i 0).val < 4672 := (i 0).isLt
  have hi1 : (i 1).val < 1280 := (i 1).isLt
  have hlt : (i 0).val / 584 < cfg0.N := by show (i 0).val / 584 < 8; omega
  obtain ⟨e0, e1, e2, e3, e4, e5, e6⟩ := idx_facts ⟨(i 0).val / 584, hlt⟩
  have e5' : win0_3.index ⟨(i 0).val / 584, hlt⟩ (0 : Fin 2) = (i 0).val / 584 := e5
  refine ⟨⟨(i 0).val / 584, hlt⟩, flush0_3 _, ?_⟩
  rw [mem_blk]
  intro a
  match a with
  | ⟨0, _⟩ =>
    show win0_3.index ⟨(i 0).val / 584, hlt⟩ (0 : Fin 2) * 584 ≤ (i 0).val ∧ (i 0).val < win0_3.index ⟨(i 0).val / 584, hlt⟩ (0 : Fin 2) * 584 + 584
    omega
  | ⟨1, _⟩ =>
    show win0_3.index ⟨(i 0).val / 584, hlt⟩ (1 : Fin 2) * 1280 ≤ (i 1).val ∧ (i 1).val < win0_3.index ⟨(i 0).val / 584, hlt⟩ (1 : Fin 2) * 1280 + 1280
    omega

/-- After region 0 its output array is the projection of the arrays the region found. -/
theorem final (c : Dev nD) :
    (dat0 (F := Ideal) V c).arrAt 3 cfg0.N = Cert.Spec.mmBias (V c main_v4) (V c main_v3) (V c main_v1) :=
  (dat0 (F := Ideal) V c).arrAt_eq_of_cover 3 (Cert.Spec.mmBias (V c main_v4) (V c main_v3) (V c main_v1))
    (fun t _ => flushed_eq V c t) cover

end Cert.KernelIdeal.Reg0

end
-- ==== Proof.KMask.lean ====
/-
  The mask body's first stored value, read at an entry. On a block of four heads the body divides by the column
  sums, divides by the row sums, averages with the transpose of the last two axes, subtracts the float 0.2 times the
  column maxima, clamps at zero and divides by the row sums again; each reduction keeps its axis through a cast to a
  unit axis and a broadcast. Read at head `n` these stages are the six stages of `Spec.maskPipe` on head `n`'s
  matrix: a stage never mixes heads.
-/
import proofs.«165519_j29884382445590_1_alg».proof.Proof.Gen.KernelIdeal.Skeleton
import proofs.«165519_j29884382445590_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Mask

open Cert.KernelIdeal Cert.KernelIdeal.Gen
open Idealize.ShloMosaic Idealize.ShloMosaic.ValueIdx

/-!
  The mask pipeline's payload, read entry by entry.

  The payload works on a block of four 577 × 577 matrices at once. Each of its six stages is read at an entry
  (n, p, q) of the block: a quotient by a column's sum (the sum over the middle axis, kept as a unit axis and spread
  back over it), a quotient by a row's sum (the same over the last axis), the mean with the transpose of the last two
  axes, the subtraction of one fifth of a column's maximum, the clamp at zero, and a last quotient by a row's sum. At
  each stage head n of the result is the matrix operation of the specification applied to head n of the operand, so
  the six compose to the specification's pipeline on head n.
-/

/-- A [4,1,577] vector broadcast along the middle axis reads its row 0. -/
theorem bcast_mid (w : FVec Ideal S4x1x577 .f32) (n : Fin 4) (p q : Fin 577) :
    broadcastTo S4x577x577 w broadcasts_S4x1x577_S4x577x577 (ix3 n p q) = w (ix3 n (0 : Fin 1) q) :=
  broadcastTo_apply w broadcasts_S4x1x577_S4x577x577 (ix3 n p q) (ix3 n (0 : Fin 1) q) (fun a => match a with
    | ⟨0, _⟩ => by show n.val = if (4 : Nat) = 1 then 0 else n.val; rw [if_neg (by decide)]
    | ⟨1, _⟩ => by show 0 = if (1 : Nat) = 1 then 0 else p.val; rw [if_pos rfl]
    | ⟨2, _⟩ => by show q.val = if (577 : Nat) = 1 then 0 else q.val; rw [if_neg (by decide)])

/-- A [4,577,1] vector broadcast along the last axis reads its column 0. -/
theorem bcast_last (w : FVec Ideal S4x577x1 .f32) (n : Fin 4) (p q : Fin 577) :
    broadcastTo S4x577x577 w broadcasts_S4x577x1_S4x577x577 (ix3 n p q) = w (ix3 n p (0 : Fin 1)) :=
  broadcastTo_apply w broadcasts_S4x577x1_S4x577x577 (ix3 n p q) (ix3 n p (0 : Fin 1)) (fun a => match a with
    | ⟨0, _⟩ => by show n.val = if (4 : Nat) = 1 then 0 else n.val; rw [if_neg (by decide)]
    | ⟨1, _⟩ => by show p.val = if (577 : Nat) = 1 then 0 else p.val; rw [if_neg (by decide)]
    | ⟨2, _⟩ => by show 0 = if (1 : Nat) = 1 then 0 else q.val; rw [if_pos rfl])

/-- The cast [4,577] → [4,1,577] read at (n, 0, q). -/
theorem cast_mid (w : FVec Ideal S4x577 .f32) (n : Fin 4) (q : Fin 577) :
    shapeCast S4x1x577 w shapeCasts_S4x577_S4x1x577 (ix3 n (0 : Fin 1) q) = w (ix2 n q) :=
  shapeCast_apply w shapeCasts_S4x577_S4x1x577 (ix3 n (0 : Fin 1) q) (ix2 n q)
    (by rewrite [Shape.rowMajor_val_two, Shape.rowMajor_val_three]
        show n.val * 577 + q.val = (n.val * 1 + 0) * 577 + q.val
        omega)

/-- The cast [4,577] → [4,577,1] read at (n, p, 0). -/
theorem cast_last (w : FVec Ideal S4x577 .f32) (n : Fin 4) (p : Fin 577) :
    shapeCast S4x577x1 w shapeCasts_S4x577_S4x577x1 (ix3 n p (0 : Fin 1)) = w (ix2 n p) :=
  shapeCast_apply w shapeCasts_S4x577_S4x577x1 (ix3 n p (0 : Fin 1)) (ix2 n p)
    (by rewrite [Shape.rowMajor_val_two, Shape.rowMajor_val_three]
        show n.val * 577 + p.val = (n.val * 577 + p.val) * 1 + 0
        omega)

/-- The sum over axis 1 read at (n, q): column q's sum in head n. -/
theorem sum_col (v : FVec Ideal S4x577x577 .f32) (n : Fin 4) (q : Fin 577) :
    multiReduction (F := Ideal) .add [1] S4x577 v 0x00000000#32 reduces_S4x577x577_S4x577 (.inl rfl) rfl (ix2 n q)
      = ∑ k : Fin 577, v (ix3 n k q) := by
  refine (Ideal.multiReduction_add_single v 0x00000000#32 reduces_S4x577x577_S4x577 (.inl rfl) rfl (ix2 n q)).trans ?_
  refine Finset.sum_congr rfl fun k _ => ?_
  exact congrArg v (funext fun a => Fin.ext (by match a with | ⟨0, _⟩ => rfl | ⟨1, _⟩ => rfl | ⟨2, _⟩ => rfl))

/-- The sum over axis 2 read at (n, p): row p's sum in head n. -/
theorem sum_row (v : FVec Ideal S4x577x577 .f32) (n : Fin 4) (p : Fin 577) :
    multiReduction (F := Ideal) .add [2] S4x577 v 0x00000000#32 reduces_S4x577x577_S4x577_2 (.inl rfl) rfl (ix2 n p)
      = ∑ k : Fin 577, v (ix3 n p k) := by
  refine (Ideal.multiReduction_add_single v 0x00000000#32 reduces_S4x577x577_S4x577_2 (.inl rfl) rfl (ix2 n p)).trans ?_
  refine Finset.sum_congr rfl fun k _ => ?_
  exact congrArg v (funext fun a => Fin.ext (by match a with | ⟨0, _⟩ => rfl | ⟨1, _⟩ => rfl | ⟨2, _⟩ => rfl))

/-- The maximum over axis 1 read at (n, q): column q's maximum in head n, folded from the accumulator. -/
theorem max_col (v : FVec Ideal S4x577x577 .f32) (n : Fin 4) (q : Fin 577) :
    multiReduction (F := Ideal) .maximumf [1] S4x577 v 0xFF800000#32 reduces_S4x577x577_S4x577 (.inl rfl) rfl (ix2 n q)
      = (Finset.univ : Finset (Fin 577)).fold max (Ideal.ofBits .f32 0xFF800000#32) (fun k => v (ix3 n k q)) := by
  refine (Ideal.multiReduction_maximumf_single v 0xFF800000#32 reduces_S4x577x577_S4x577 (.inl rfl) rfl (ix2 n q)).trans ?_
  have hf : (v ∘ reduces_S4x577x577_S4x577.lift (ix2 n q)) = fun k : Fin 577 => v (ix3 n k q) :=
    funext fun k => congrArg v (funext fun a => Fin.ext (by match a with | ⟨0, _⟩ => rfl | ⟨1, _⟩ => rfl | ⟨2, _⟩ => rfl))
  exact congrArg (fun f => (Finset.univ : Finset (Fin 577)).fold max (Ideal.ofBits .f32 0xFF800000#32) f) hf

/-- The transpose of the last two axes read at (n, p, q). -/
theorem transp (v : FVec Ideal S4x577x577 .f32) (n : Fin 4) (p q : Fin 577) :
    transpose S4x577x577 [0, 2, 1] v transposes_S4x577x577_p0_2_1_S4x577x577 (ix3 n p q) = v (ix3 n q p) :=
  transpose_apply [0, 2, 1] v transposes_S4x577x577_p0_2_1_S4x577x577 (ix3 n p q) (ix3 n q p) (fun b => match b with
    | ⟨0, _⟩ => rfl
    | ⟨1, _⟩ => rfl
    | ⟨2, _⟩ => rfl)
/-- Each entry over its column's sum, on a block of four heads. -/
def colN (v : FVec Ideal S4x577x577 .f32) : FVec Ideal S4x577x577 .f32 :=
  divf v (broadcastTo S4x577x577 (shapeCast S4x1x577 (multiReduction (F := Ideal) .add [1] S4x577 v 0x00000000#32 reduces_S4x577x577_S4x577 (.inl rfl) rfl) shapeCasts_S4x577_S4x1x577) broadcasts_S4x1x577_S4x577x577)

/-- Each entry over its row's sum, on a block of four heads. -/
def rowN (v : FVec Ideal S4x577x577 .f32) : FVec Ideal S4x577x577 .f32 :=
  divf v (broadcastTo S4x577x577 (shapeCast S4x577x1 (multiReduction (F := Ideal) .add [2] S4x577 v 0x00000000#32 reduces_S4x577x577_S4x577_2 (.inl rfl) rfl) shapeCasts_S4x577_S4x577x1) broadcasts_S4x577x1_S4x577x577)

/-- The mean of each head with its transpose. -/
def symH (v : FVec Ideal S4x577x577 .f32) : FVec Ideal S4x577x577 .f32 :=
  mulf (addf v (transpose S4x577x577 [0, 2, 1] v transposes_S4x577x577_p0_2_1_S4x577x577))
    (broadcast S4x577x577 (Scalar.ofBits (F := Ideal) .f32 0x3F000000#32))

/-- Each entry less the float 0.2 times its column's maximum. -/
def cmSub (v : FVec Ideal S4x577x577 .f32) : FVec Ideal S4x577x577 .f32 :=
  subf v (broadcastTo S4x577x577
    (mulf (shapeCast S4x1x577 (multiReduction (F := Ideal) .maximumf [1] S4x577 v 0xFF800000#32 reduces_S4x577x577_S4x577 (.inl rfl) rfl) shapeCasts_S4x577_S4x1x577)
      (broadcast S4x1x577 (Scalar.ofBits (F := Ideal) .f32 0x3E4CCCCD#32)))
    broadcasts_S4x1x577_S4x577x577)

/-- Each entry clamped at zero from below. -/
def reluV (v : FVec Ideal S4x577x577 .f32) : FVec Ideal S4x577x577 .f32 :=
  maximumf v (broadcast S4x577x577 (Scalar.ofBits (F := Ideal) .f32 0x00000000#32))

/-- The float constant a payload splats, at the ideal values. -/
theorem scalar_ofBits (w : BitVec 32) : Scalar.ofBits (F := Ideal) .f32 w = Ideal.ofBits .f32 w := rfl

/-- The column normalisation read at an entry of head n. -/
theorem colN_apply (v : FVec Ideal S4x577x577 .f32) (n : Fin 4) (p q : Fin 577) :
    colN v (ix3 n p q) = Cert.Spec.colNorm (Cert.Spec.head v n) p q := by
  unfold colN Cert.Spec.colNorm
  rw [divf_apply, bcast_mid, cast_mid, sum_col]

/-- The row normalisation read at an entry of head n. -/
theorem rowN_apply (v : FVec Ideal S4x577x577 .f32) (n : Fin 4) (p q : Fin 577) :
    rowN v (ix3 n p q) = Cert.Spec.rowNorm (Cert.Spec.head v n) p q := by
  unfold rowN Cert.Spec.rowNorm
  rw [divf_apply, bcast_last, cast_last, sum_row]

/-- The symmetrisation read at an entry of head n. -/
theorem symH_apply (v : FVec Ideal S4x577x577 .f32) (n : Fin 4) (p q : Fin 577) :
    symH v (ix3 n p q) = Cert.Spec.symHalf (Cert.Spec.head v n) p q := by
  unfold symH Cert.Spec.symHalf
  rw [mulf_apply, addf_apply, transp, broadcast_apply, scalar_ofBits]

/-- The column-maximum subtraction read at an entry of head n. -/
theorem cmSub_apply (v : FVec Ideal S4x577x577 .f32) (n : Fin 4) (p q : Fin 577) :
    cmSub v (ix3 n p q) = Cert.Spec.colMaxSub (Cert.Spec.head v n) p q := by
  unfold cmSub Cert.Spec.colMaxSub Cert.Spec.colMax
  rw [subf_apply, bcast_mid, mulf_apply, cast_mid, max_col, broadcast_apply, scalar_ofBits]

/-- The clamp read at an entry of head n. -/
theorem reluV_apply (v : FVec Ideal S4x577x577 .f32) (n : Fin 4) (p q : Fin 577) :
    reluV v (ix3 n p q) = Cert.Spec.relu (Cert.Spec.head v n) p q := by
  unfold reluV Cert.Spec.relu
  rw [maximumf_apply, broadcast_apply, scalar_ofBits]

/-- Head n of the column normalisation is the column normalisation of head n. -/
theorem head_colN (v : FVec Ideal S4x577x577 .f32) (n : Fin 4) :
    Cert.Spec.head (colN v) n = Cert.Spec.colNorm (Cert.Spec.head v n) :=
  funext fun p => funext fun q => colN_apply v n p q

/-- Head n of the row normalisation is the row normalisation of head n. -/
theorem head_rowN (v : FVec Ideal S4x577x577 .f32) (n : Fin 4) :
    Cert.Spec.head (rowN v) n = Cert.Spec.rowNorm (Cert.Spec.head v n) :=
  funext fun p => funext fun q => rowN_apply v n p q

/-- Head n of the symmetrisation is the symmetrisation of head n. -/
theorem head_symH (v : FVec Ideal S4x577x577 .f32) (n : Fin 4) :
    Cert.Spec.head (symH v) n = Cert.Spec.symHalf (Cert.Spec.head v n) :=
  funext fun p => funext fun q => symH_apply v n p q

/-- Head n of the column-maximum subtraction is that subtraction on head n. -/
theorem head_cmSub (v : FVec Ideal S4x577x577 .f32) (n : Fin 4) :
    Cert.Spec.head (cmSub v) n = Cert.Spec.colMaxSub (Cert.Spec.head v n) :=
  funext fun p => funext fun q => cmSub_apply v n p q

/-- Head n of the clamp is the clamp of head n. -/
theorem head_reluV (v : FVec Ideal S4x577x577 .f32) (n : Fin 4) :
    Cert.Spec.head (reluV v) n = Cert.Spec.relu (Cert.Spec.head v n) :=
  funext fun p => funext fun q => reluV_apply v n p q

/-- The payload is the six stages in turn (its first step is a cast to the same shape). -/
theorem pay1_eq (x0 : Vec Ideal S4x577x577 .f32) :
    k1_pay1 (F := Ideal) x0 = rowN (reluV (cmSub (symH (rowN (colN x0))))) := by
  have hk : k1_pay1 (F := Ideal) x0
      = rowN (reluV (cmSub (symH (rowN (colN (shapeCast S4x577x577 x0 shapeCasts_S4x577x577_S4x577x577)))))) := rfl
  rw [hk, shapeCast_self]

/-- The mask body's first payload at an entry of its block of four heads: the mask pipeline on head `n`'s matrix. -/
theorem pay1 (x0 : Vec Ideal S4x577x577 .f32) (n : Fin 4) (i j : Fin 577) :
    k1_pay1 (F := Ideal) x0 (ix3 n i j) = Cert.Spec.maskPipe (Cert.Spec.head x0 n) i j := by
  rw [pay1_eq]
  unfold Cert.Spec.maskPipe
  show Cert.Spec.head (rowN (reluV (cmSub (symH (rowN (colN x0)))))) n i j = _
  rw [head_rowN, head_reluV, head_cmSub, head_symH, head_rowN, head_colN]

end Cert.KernelIdeal.Mask

end
-- ==== Proof.KReg1.lean ====
/-
  The fused mask and attention region, read as a value. The region's grid has 32 points; point `t` takes heads
  4·t … 4·t + 3 of the mask array and of the values array and writes the same heads of the two outputs.
  The second stored value is the batched matrix product of the first (the attention weights) with the values:
  `∑ k, weights[n, i, k] · values[n, k, d]` (casts to bf16 the identity, zero accumulator). So point `t` writes
  back heads 4·t … of `Spec.awSpec` and of `Spec.aoSpec` of the arrays the region found; the 32 blocks tile the
  128 heads (head `n` lies in block `n / 4`), hence the two output arrays end as those functions.
-/
import proofs.«165519_j29884382445590_1_alg».proof.Proof.Gen.KernelIdeal.Frame
import proofs.«165519_j29884382445590_1_alg».proof.Proof.Spec
import proofs.«165519_j29884382445590_1_alg».proof.Proof.KMask
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The batched product's left operand index, batch axis: the output's head. -/
theorem lhs_dot_0 (j : S4x577x80.Idx) (q : dot_S4x577x577_S4x577x80_S4x577x80_2_1_1_2_0_0.contr.Idx) :
    (dot_S4x577x577_S4x577x80_S4x577x80_2_1_1_2_0_0.lhsIdx j q 0).val = (j 0).val := by
  unfold DotDims.lhsIdx
  rw [dif_pos (show (0 : Fin S4x577x577.rank) ∈ dot_S4x577x577_S4x577x80_S4x577x80_2_1_1_2_0_0.lhsBatch by decide)]
  rfl

/-- The left operand index, free axis: the output's row. -/
theorem lhs_dot_1 (j : S4x577x80.Idx) (q : dot_S4x577x577_S4x577x80_S4x577x80_2_1_1_2_0_0.contr.Idx) :
    (dot_S4x577x577_S4x577x80_S4x577x80_2_1_1_2_0_0.lhsIdx j q 1).val = (j 1).val := by
  unfold DotDims.lhsIdx
  rw [dif_neg (show ¬(1 : Fin S4x577x577.rank) ∈ dot_S4x577x577_S4x577x80_S4x577x80_2_1_1_2_0_0.lhsBatch by decide), dif_pos (show (1 : Fin S4x577x577.rank) ∈ dot_S4x577x577_S4x577x80_S4x577x80_2_1_1_2_0_0.lhsNonContracting by decide)]
  rfl

/-- The left operand index, contracted axis: the summation coordinate. -/
theorem lhs_dot_2 (j : S4x577x80.Idx) (q : dot_S4x577x577_S4x577x80_S4x577x80_2_1_1_2_0_0.contr.Idx) :
    (dot_S4x577x577_S4x577x80_S4x577x80_2_1_1_2_0_0.lhsIdx j q 2).val = (q ⟨0, by decide⟩).val :=
  dot_S4x577x577_S4x577x80_S4x577x80_2_1_1_2_0_0.lhsIdx_val_of_single rfl j q

/-- The right operand index, batch axis: the output's head. -/
theorem rhs_dot_0 (j : S4x577x80.Idx) (q : dot_S4x577x577_S4x577x80_S4x577x80_2_1_1_2_0_0.contr.Idx) :
    (dot_S4x577x577_S4x577x80_S4x577x80_2_1_1_2_0_0.rhsIdx j q 0).val = (j 0).val := by
  unfold DotDims.rhsIdx
  rw [dif_pos (show (0 : Fin S4x577x80.rank) ∈ dot_S4x577x577_S4x577x80_S4x577x80_2_1_1_2_0_0.rhsBatch by decide)]
  rfl

/-- The right operand index, contracted axis: the summation coordinate. -/
theorem rhs_dot_1 (j : S4x577x80.Idx) (q : dot_S4x577x577_S4x577x80_S4x577x80_2_1_1_2_0_0.contr.Idx) :
    (dot_S4x577x577_S4x577x80_S4x577x80_2_1_1_2_0_0.rhsIdx j q 1).val = (q ⟨0, by decide⟩).val :=
  dot_S4x577x577_S4x577x80_S4x577x80_2_1_1_2_0_0.rhsIdx_val_of_single rfl j q

/-- The right operand index, free axis: the output's column. -/
theorem rhs_dot_2 (j : S4x577x80.Idx) (q : dot_S4x577x577_S4x577x80_S4x577x80_2_1_1_2_0_0.contr.Idx) :
    (dot_S4x577x577_S4x577x80_S4x577x80_2_1_1_2_0_0.rhsIdx j q 2).val = (j 2).val := by
  unfold DotDims.rhsIdx
  rw [dif_neg (show ¬(2 : Fin S4x577x80.rank) ∈ dot_S4x577x577_S4x577x80_S4x577x80_2_1_1_2_0_0.rhsBatch by decide), dif_pos (show (2 : Fin S4x577x80.rank) ∈ dot_S4x577x577_S4x577x80_S4x577x80_2_1_1_2_0_0.rhsNonContracting by decide)]
  rfl

/-- The mask body's second payload at an entry: head `n`'s weights (the first payload) times head `n`'s values, summed over the key position. -/
theorem pay2 (x0 : Vec Ideal S4x577x577 .f32) (x1 : Vec Ideal S4x577x80 .f32) (n : Fin 4) (i : Fin 577) (d : Fin 80) :
    k1_pay2 (F := Ideal) x0 x1 (ix3 n i d) = ∑ k : Fin 577, k1_pay1 (F := Ideal) x0 (ix3 n i k) * x1 (ix3 n k d) := by
  unfold k1_pay2
  generalize k1_pay1 (F := Ideal) x0 = y0
  simp only [matmul]
  rw [Ideal.matmul_constant_zero_apply, ← Equiv.sum_comp (ValueIdx.contrEquiv1 dot_S4x577x577_S4x577x80_S4x577x80_2_1_1_2_0_0 577 rfl rfl).symm]
  refine Finset.sum_congr rfl fun k _ => ?_
  have hk := ValueIdx.contrEquiv1_symm_val dot_S4x577x577_S4x577x80_S4x577x80_2_1_1_2_0_0 577 rfl rfl k
  have el : dot_S4x577x577_S4x577x80_S4x577x80_2_1_1_2_0_0.lhsIdx (ix3 n i d) ((ValueIdx.contrEquiv1 dot_S4x577x577_S4x577x80_S4x577x80_2_1_1_2_0_0 577 rfl rfl).symm k) = ix3 n i k := funext fun a => Fin.ext (by
    match a with
    | ⟨0, _⟩ => exact lhs_dot_0 _ _
    | ⟨1, _⟩ => exact lhs_dot_1 _ _
    | ⟨2, _⟩ => exact (lhs_dot_2 _ _).trans hk)
  have er : dot_S4x577x577_S4x577x80_S4x577x80_2_1_1_2_0_0.rhsIdx (ix3 n i d) ((ValueIdx.contrEquiv1 dot_S4x577x577_S4x577x80_S4x577x80_2_1_1_2_0_0 577 rfl rfl).symm k) = ix3 n k d := funext fun a => Fin.ext (by
    match a with
    | ⟨0, _⟩ => exact rhs_dot_0 _ _
    | ⟨1, _⟩ => exact (rhs_dot_1 _ _).trans hk
    | ⟨2, _⟩ => exact rhs_dot_2 _ _)
  rw [el, er, truncf_apply, truncf_apply, shapeCast_self]

/-- The zero offset of a whole-block access, as a function. -/
theorem off_zero3 : (![0, 0, 0] : Fin 3 → Nat) = fun _ => 0 := funext fun a => by fin_cases a <;> rfl

/-- Entry `(n, i, j)` of the first payload is the attention weight at the array index `I`, as soon as head `n` of the
    block is head `N` of the array and `I` is `(N, i, j)`. -/
theorem aw_at (x0 : Vec Ideal S4x577x577 .f32) (msk : S128x577x577.Idx → EReal) (I : S128x577x577.Idx)
    (n : Fin 4) (N : Fin 128) (i j : Fin 577)
    (h0 : (I 0).val = N.val) (h1 : (I 1).val = i.val) (h2 : (I 2).val = j.val)
    (hx : ∀ p q : Fin 577, x0 (ix3 n p q) = msk (ix3 N p q)) :
    k1_pay1 (F := Ideal) x0 (ix3 n i j) = Cert.Spec.awSpec msk I := by
  have e0 : I 0 = N := Fin.ext h0
  have e1 : I 1 = i := Fin.ext h1
  have e2 : I 2 = j := Fin.ext h2
  rw [Cert.KernelIdeal.Mask.pay1]
  unfold Cert.Spec.awSpec
  rw [e0, e1, e2]
  have hh : Cert.Spec.head x0 n = Cert.Spec.head msk N := funext fun p => funext fun q => hx p q
  rw [hh]

/-- Entry `(n, i, d)` of the second payload is the attention product at the array index `I`, as soon as head `n` of both
    blocks is head `N` of both arrays and `I` is `(N, i, d)`. -/
theorem ao_at (x0 : Vec Ideal S4x577x577 .f32) (x1 : Vec Ideal S4x577x80 .f32) (msk : S128x577x577.Idx → EReal) (v : S128x577x80.Idx → EReal)
    (I : S128x577x80.Idx) (n : Fin 4) (N : Fin 128) (i : Fin 577) (d : Fin 80)
    (h0 : (I 0).val = N.val) (h1 : (I 1).val = i.val) (h2 : (I 2).val = d.val)
    (hx : ∀ p q : Fin 577, x0 (ix3 n p q) = msk (ix3 N p q))
    (hv : ∀ (k : Fin 577) (e : Fin 80), x1 (ix3 n k e) = v (ix3 N k e)) :
    k1_pay2 (F := Ideal) x0 x1 (ix3 n i d) = Cert.Spec.aoSpec msk v I := by
  have e0 : I 0 = N := Fin.ext h0
  have e1 : I 1 = i := Fin.ext h1
  have e2 : I 2 = d := Fin.ext h2
  rw [pay2]
  unfold Cert.Spec.aoSpec
  refine Finset.sum_congr rfl fun k _ => ?_
  rw [hv, e0, e1, e2]
  congr 1
  exact aw_at x0 msk (ix3 N i k) n N i k rfl rfl rfl hx

variable (V : (c : Dev nD) → (b : Ref sig .tc) → Buf (Elt Ideal) ((c : Thread nD τ).loc b))

/-- At point `t` every window's block index is `t` on the head axis and zero on the other two. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- What point `t` writes back to the weights' array is block `t` of the attention weights of the mask array. -/
theorem flushed_aw (c : Dev nD) (t : Fin cfg1.N) :
    (dat1 (F := Ideal) V c).flushed 2 t = ((cfg1.win 2).blk t).view.read (Elt Ideal) (Cert.Spec.awSpec (V c main_v10)) := by
  show (cfg1.win 2).cut (grid1.coords t) ((dat1 V c).after 2 t) = _
  rw [after1_2]
  unfold out1_2
  rw [View.canon_unit_zero off_zero3]
  simp only [View.ld_unit_zero (S := S4x577x577) off_zero3]
  obtain ⟨a0, a1, a2, b0, b1, b2, c0, c1, c2, d0, d1, d2⟩ := idx_facts t
  have ht : t.val < 32 := t.isLt
  funext j
  have hj0 : (j 0).val < 4 := (j 0).isLt
  refine (congrArg (k1_pay1 (F := Ideal) _) (eq_ix3 (n0 := 4) (n1 := 577) (n2 := 577) j)).trans ?_
  show _ = Cert.Spec.awSpec (V c main_v10) (((cfg1.win 2).blk t).view.emb j)
  refine aw_at _ _ _ (j 0) ⟨4 * t.val + (j 0).val, by omega⟩ (j 1) (j 2) ?_ ?_ ?_ ?_
  · show win1_2.index t (0 : Fin 3) * 4 + 1 * (j 0).val = 4 * t.val + (j 0).val
    omega
  · show win1_2.index t (1 : Fin 3) * 577 + 1 * (j 1).val = (j 1).val
    omega
  · show win1_2.index t (2 : Fin 3) * 577 + 1 * (j 2).val = (j 2).val
    omega
  · intro p q
    show V c main_v10 (((cfg1.win 0).blk t).view.emb (ix3 (j 0) p q)) = V c main_v10 (ix3 ⟨4 * t.val + (j 0).val, by omega⟩ p q)
    refine congrArg _ (funext fun a => Fin.ext ?_)
    match a with
    | ⟨0, _⟩ => show win1_0.index t (0 : Fin 3) * 4 + 1 * (j 0).val = 4 * t.val + (j 0).val; omega
    | ⟨1, _⟩ => show win1_0.index t (1 : Fin 3) * 577 + 1 * p.val = p.val; omega
    | ⟨2, _⟩ => show win1_0.index t (2 : Fin 3) * 577 + 1 * q.val = q.val; omega

/-- What point `t` writes back to the products' array is block `t` of the attention product of the mask and value arrays. -/
theorem flushed_ao (c : Dev nD) (t : Fin cfg1.N) :
    (dat1 (F := Ideal) V c).flushed 3 t = ((cfg1.win 3).blk t).view.read (Elt Ideal) (Cert.Spec.aoSpec (V c main_v10) (V c main_v9)) := by
  show (cfg1.win 3).cut (grid1.coords t) ((dat1 V c).after 3 t) = _
  rw [after1_3]
  unfold out1_3
  rw [View.canon_unit_zero off_zero3]
  simp only [View.ld_unit_zero (S := S4x577x577) off_zero3, View.ld_unit_zero (S := S4x577x80) off_zero3]
  obtain ⟨a0, a1, a2, b0, b1, b2, c0, c1, c2, d0, d1, d2⟩ := idx_facts t
  have ht : t.val < 32 := t.isLt
  funext j
  have hj0 : (j 0).val < 4 := (j 0).isLt
  refine (congrArg (k1_pay2 (F := Ideal) _ _) (eq_ix3 (n0 := 4) (n1 := 577) (n2 := 80) j)).trans ?_
  show _ = Cert.Spec.aoSpec (V c main_v10) (V c main_v9) (((cfg1.win 3).blk t).view.emb j)
  refine ao_at _ _ _ _ _ (j 0) ⟨4 * t.val + (j 0).val, by omega⟩ (j 1) (j 2) ?_ ?_ ?_ ?_ ?_
  · show win1_3.index t (0 : Fin 3) * 4 + 1 * (j 0).val = 4 * t.val + (j 0).val
    omega
  · show win1_3.index t (1 : Fin 3) * 577 + 1 * (j 1).val = (j 1).val
    omega
  · show win1_3.index t (2 : Fin 3) * 80 + 1 * (j 2).val = (j 2).val
    omega
  · intro p q
    show V c main_v10 (((cfg1.win 0).blk t).view.emb (ix3 (j 0) p q)) = V c main_v10 (ix3 ⟨4 * t.val + (j 0).val, by omega⟩ p q)
    refine congrArg _ (funext fun a => Fin.ext ?_)
    match a with
    | ⟨0, _⟩ => show win1_0.index t (0 : Fin 3) * 4 + 1 * (j 0).val = 4 * t.val + (j 0).val; omega
    | ⟨1, _⟩ => show win1_0.index t (1 : Fin 3) * 577 + 1 * p.val = p.val; omega
    | ⟨2, _⟩ => show win1_0.index t (2 : Fin 3) * 577 + 1 * q.val = q.val; omega
  · intro k e
    show V c main_v9 (((cfg1.win 1).blk t).view.emb (ix3 (j 0) k e)) = V c main_v9 (ix3 ⟨4 * t.val + (j 0).val, by omega⟩ k e)
    refine congrArg _ (funext fun a => Fin.ext ?_)
    match a with
    | ⟨0, _⟩ => show win1_1.index t (0 : Fin 3) * 4 + 1 * (j 0).val = 4 * t.val + (j 0).val; omega
    | ⟨1, _⟩ => show win1_1.index t (1 : Fin 3) * 577 + 1 * k.val = k.val; omega
    | ⟨2, _⟩ => show win1_1.index t (2 : Fin 3) * 80 + 1 * e.val = e.val; omega

/-- An index of the weights' array is in point `t`'s block iff each coordinate is in the block's range on its axis. -/
theorem mem_blk_aw (t : Fin cfg1.N) (i : S128x577x577.Idx) :
    i ∈ ((cfg1.win 2).blk t).view.set ↔ ∀ a : Fin 3, win1_2.index t a * S4x577x577.size a ≤ (i a).val ∧ (i a).val < win1_2.index t a * S4x577x577.size a + S4x577x577.size a := by
  show i ∈ ((View.whole main_v11_0).slice (win1_2.rect t)).set ↔ _
  rw [View.set_slice_whole, Rect.mem_set_unit]
  exact Iff.rfl

/-- An index of the products' array is in point `t`'s block iff each coordinate is in the block's range on its axis. -/
theorem mem_blk_ao (t : Fin cfg1.N) (i : S128x577x80.Idx) :
    i ∈ ((cfg1.win 3).blk t).view.set ↔ ∀ a : Fin 3, win1_3.index t a * S4x577x80.size a ≤ (i a).val ∧ (i a).val < win1_3.index t a * S4x577x80.size a + S4x577x80.size a := by
  show i ∈ ((View.whole main_v11_1).slice (win1_3.rect t)).set ↔ _
  rw [View.set_slice_whole, Rect.mem_set_unit]
  exact Iff.rfl

/-- Every index of the weights' array is in a block: head `N` is in the block of point `N / 4`. -/
theorem cover_aw (i : S128x577x577.Idx) :
    ∃ t : Fin cfg1.N, (cfg1.win 2).flush t = true ∧ i ∈ ((cfg1.win 2).blk t).view.set := by
  have hi0 : (i 0).val < 128 := (i 0).isLt
  have hi1 : (i 1).val < 577 := (i 1).isLt
  have hi2 : (i 2).val < 577 := (i 2).isLt
  refine ⟨⟨(i 0).val / 4, by show (i 0).val / 4 < 32; omega⟩, flush1_2 _, ?_⟩
  obtain ⟨a0, a1, a2, b0, b1, b2, c0, c1, c2, d0, d1, d2⟩ := idx_facts ⟨(i 0).val / 4, by show (i 0).val / 4 < 32; omega⟩
  have c0' : win1_2.index ⟨(i 0).val / 4, by show (i 0).val / 4 < 32; omega⟩ (0 : Fin 3) = (i 0).val / 4 := c0
  rw [mem_blk_aw]
  intro a
  match a with
  | ⟨0, _⟩ => show win1_2.index _ (0 : Fin 3) * 4 ≤ (i 0).val ∧ (i 0).val < win1_2.index _ (0 : Fin 3) * 4 + 4; omega
  | ⟨1, _⟩ => show win1_2.index _ (1 : Fin 3) * 577 ≤ (i 1).val ∧ (i 1).val < win1_2.index _ (1 : Fin 3) * 577 + 577; omega
  | ⟨2, _⟩ => show win1_2.index _ (2 : Fin 3) * 577 ≤ (i 2).val ∧ (i 2).val < win1_2.index _ (2 : Fin 3) * 577 + 577; omega

/-- Every index of the products' array is in a block: head `N` is in the block of point `N / 4`. -/
theorem cover_ao (i : S128x577x80.Idx) :
    ∃ t : Fin cfg1.N, (cfg1.win 3).flush t = true ∧ i ∈ ((cfg1.win 3).blk t).view.set := by
  have hi0 : (i 0).val < 128 := (i 0).isLt
  have hi1 : (i 1).val < 577 := (i 1).isLt
  have hi2 : (i 2).val < 80 := (i 2).isLt
  refine ⟨⟨(i 0).val / 4, by show (i 0).val / 4 < 32; omega⟩, flush1_3 _, ?_⟩
  obtain ⟨a0, a1, a2, b0, b1, b2, c0, c1, c2, d0, d1, d2⟩ := idx_facts ⟨(i 0).val / 4, by show (i 0).val / 4 < 32; omega⟩
  have d0' : win1_3.index ⟨(i 0).val / 4, by show (i 0).val / 4 < 32; omega⟩ (0 : Fin 3) = (i 0).val / 4 := d0
  rw [mem_blk_ao]
  intro a
  match a with
  | ⟨0, _⟩ => show win1_3.index _ (0 : Fin 3) * 4 ≤ (i 0).val ∧ (i 0).val < win1_3.index _ (0 : Fin 3) * 4 + 4; omega
  | ⟨1, _⟩ => show win1_3.index _ (1 : Fin 3) * 577 ≤ (i 1).val ∧ (i 1).val < win1_3.index _ (1 : Fin 3) * 577 + 577; omega
  | ⟨2, _⟩ => show win1_3.index _ (2 : Fin 3) * 80 ≤ (i 2).val ∧ (i 2).val < win1_3.index _ (2 : Fin 3) * 80 + 80; omega

/-- After region 1 its first output array holds the attention weights of the mask array the region found. -/
theorem final_aw (c : Dev nD) :
    (dat1 (F := Ideal) V c).arrAt 2 cfg1.N = Cert.Spec.awSpec (V c main_v10) :=
  (dat1 (F := Ideal) V c).arrAt_eq_of_cover 2 (Cert.Spec.awSpec (V c main_v10)) (fun t _ => flushed_aw V c t) cover_aw

/-- After region 1 its second output array holds the attention product of the mask and value arrays the region found. -/
theorem final_ao (c : Dev nD) :
    (dat1 (F := Ideal) V c).arrAt 3 cfg1.N = Cert.Spec.aoSpec (V c main_v10) (V c main_v9) :=
  (dat1 (F := Ideal) V c).arrAt_eq_of_cover 3 (Cert.Spec.aoSpec (V c main_v10) (V c main_v9)) (fun t _ => flushed_ao V c t) cover_ao

end Cert.KernelIdeal.Reg1

end
-- ==== Proof.KReg2.lean ====
/-
  A projection region of the kernel program, read as a value. The region's grid has 8 points; point `t` takes rows
  584·t … 584·t + 583 of its input array, the whole weight and the whole bias, and writes the same rows of its output.
  Over the extended reals the body's result at row `p` of the block and feature `q` is
  `∑ k, block[p, k] · weight[k, q] + bias[q]` (the casts to bf16 are the identity, the matrix product into a zero
  accumulator is the plain sum), so point `t` writes back rows 584·t … of `Spec.mmBias` of the arrays the region
  found; the 8 blocks tile the 4672 rows (row `r` lies in block `r / 584`), hence the output array ends as
  `Spec.mmBias` of the three input arrays.
-/
import proofs.«165519_j29884382445590_1_alg».proof.Proof.Gen.KernelIdeal.Frame
import proofs.«165519_j29884382445590_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The contraction's index maps, axis by axis -/

/-- The left operand's row is the result's row. -/
theorem lhs_axis0 (i : S584x1280.Idx) (q : dot_S584x1280_S1280x1280_S584x1280_1_0_0_1_n_n.contr.Idx) :
    (dot_S584x1280_S1280x1280_S584x1280_1_0_0_1_n_n.lhsIdx i q 0).val = (i 0).val := by
  unfold DotDims.lhsIdx
  rw [dif_neg (show ¬(0 : Fin S584x1280.rank) ∈ dot_S584x1280_S1280x1280_S584x1280_1_0_0_1_n_n.lhsBatch by decide), dif_pos (show (0 : Fin S584x1280.rank) ∈ dot_S584x1280_S1280x1280_S584x1280_1_0_0_1_n_n.lhsNonContracting by decide)]
  rfl

/-- The left operand's column is the contraction position. -/
theorem lhs_axis1 (i : S584x1280.Idx) (q : dot_S584x1280_S1280x1280_S584x1280_1_0_0_1_n_n.contr.Idx) :
    (dot_S584x1280_S1280x1280_S584x1280_1_0_0_1_n_n.lhsIdx i q 1).val = (q ⟨0, by decide⟩).val :=
  dot_S584x1280_S1280x1280_S584x1280_1_0_0_1_n_n.lhsIdx_val_of_single rfl i q

/-- The right operand's row is the contraction position. -/
theorem rhs_axis0 (i : S584x1280.Idx) (q : dot_S584x1280_S1280x1280_S584x1280_1_0_0_1_n_n.contr.Idx) :
    (dot_S584x1280_S1280x1280_S584x1280_1_0_0_1_n_n.rhsIdx i q 0).val = (q ⟨0, by decide⟩).val :=
  dot_S584x1280_S1280x1280_S584x1280_1_0_0_1_n_n.rhsIdx_val_of_single rfl i q

/-- The right operand's column is the result's column. -/
theorem rhs_axis1 (i : S584x1280.Idx) (q : dot_S584x1280_S1280x1280_S584x1280_1_0_0_1_n_n.contr.Idx) :
    (dot_S584x1280_S1280x1280_S584x1280_1_0_0_1_n_n.rhsIdx i q 1).val = (i 1).val := by
  unfold DotDims.rhsIdx
  rw [dif_neg (show ¬(1 : Fin S1280x1280.rank) ∈ dot_S584x1280_S1280x1280_S584x1280_1_0_0_1_n_n.rhsBatch by decide), dif_pos (show (1 : Fin S1280x1280.rank) ∈ dot_S584x1280_S1280x1280_S584x1280_1_0_0_1_n_n.rhsNonContracting by decide)]
  rfl

/-- The matrix product with a zero accumulator, at an entry: the sum over the shared axis. -/
theorem matmul_entry (a : FVec Ideal S584x1280 .bf16) (b : FVec Ideal S1280x1280 .bf16) (p : Fin 584) (q : Fin 1280) :
    FloatOps.matmul dot_S584x1280_S1280x1280_S584x1280_1_0_0_1_n_n none a b (constant S584x1280 .f32 0x00000000#32) (ix2 p q)
      = ∑ k : Fin 1280, a (ix2 p k) * b (ix2 k q) := by
  rw [Ideal.matmul_constant_zero_apply, ← Equiv.sum_comp (contrEquiv1 dot_S584x1280_S1280x1280_S584x1280_1_0_0_1_n_n 1280 rfl rfl).symm]
  refine Finset.sum_congr rfl fun k _ => ?_
  have hk := contrEquiv1_symm_val dot_S584x1280_S1280x1280_S584x1280_1_0_0_1_n_n 1280 rfl rfl k
  have el : dot_S584x1280_S1280x1280_S584x1280_1_0_0_1_n_n.lhsIdx (ix2 p q) ((contrEquiv1 dot_S584x1280_S1280x1280_S584x1280_1_0_0_1_n_n 1280 rfl rfl).symm k) = ix2 p k := funext fun a => Fin.ext (by
    match a with
    | ⟨0, _⟩ => exact lhs_axis0 _ _
    | ⟨1, _⟩ => exact (lhs_axis1 _ _).trans hk)
  have er : dot_S584x1280_S1280x1280_S584x1280_1_0_0_1_n_n.rhsIdx (ix2 p q) ((contrEquiv1 dot_S584x1280_S1280x1280_S584x1280_1_0_0_1_n_n 1280 rfl rfl).symm k) = ix2 k q := funext fun a => Fin.ext (by
    match a with
    | ⟨0, _⟩ => exact (rhs_axis0 _ _).trans hk
    | ⟨1, _⟩ => exact rhs_axis1 _ _)
  rw [el, er]

/-- The bias row, given a leading unit axis and repeated down the 584 rows, at an entry. -/
theorem bias_entry (x2 : Vec Ideal S1280 .f32) (p : Fin 584) (q : Fin 1280) :
    broadcastTo S584x1280 (shapeCast S1x1280 x2 shapeCasts_S1280_S1x1280) broadcasts_S1x1280_S584x1280 (ix2 p q)
      = x2 (ix1 q) := by
  rw [broadcastTo_apply _ broadcasts_S1x1280_S584x1280 (ix2 p q) (ix2 (0 : Fin 1) q) (fun a => match a with
    | ⟨0, _⟩ => by show 0 = if (1 : Nat) = 1 then 0 else p.val; rw [if_pos rfl]
    | ⟨1, _⟩ => by show q.val = if (1280 : Nat) = 1 then 0 else q.val; rw [if_neg (by decide)])]
  refine (shapeCast_apply x2 shapeCasts_S1280_S1x1280 (ix2 (0 : Fin 1) q) (ix1 q) ?_)
  rw [Shape.rowMajor_val_one, Shape.rowMajor_val_two]
  show q.val = 0 * 1280 + q.val
  omega

/-- The output projection's body at an entry of its 584-row block: row `p` of the block against column `q` of the weight, plus the bias at `q`. -/
theorem pay (x0 : Vec Ideal S584x1280 .f32) (x1 : Vec Ideal S1280x1280 .f32) (x2 : Vec Ideal S1280 .f32) (p : Fin 584) (q : Fin 1280) :
    k2_pay1 (F := Ideal) x0 x1 x2 (ix2 p q) = (∑ k : Fin 1280, x0 (ix2 p k) * x1 (ix2 k q)) + x2 (ix1 q) := by
  unfold k2_pay1
  rw [addf_apply, bias_entry, shapeCast_self, shapeCast_self]
  refine congrArg (· + x2 (ix1 q)) ?_
  exact matmul_entry _ _ p q

variable (V : (c : Dev nD) → (b : Ref sig .tc) → Buf (Elt Ideal) ((c : Thread nD τ).loc b))

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the input rows move with the output rows, which are block `t` at point `t`; the weight and the bias stay at block 0; no window moves along the columns. -/
theorem idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = t.val
    ∧ win2_3.index t (1 : Fin 2) = 0 :=
  (by decide +kernel : ∀ t : Fin grid2.N, _)

/-- The input block at point `t`, row `p`, column `k`: the input array at the output block's row and column `k`. -/
theorem read_in (c : Dev nD) (t : Fin cfg2.N) (p : Fin 584) (q k : Fin 1280) :
    iblk2 V c 0 t (ix2 p k) = V c main_v16 (ix2 (((cfg2.win 3).blk t).view.emb (ix2 p q) 0) k) := by
  obtain ⟨e0, e1, e2, e3, e4, e5, e6⟩ := idx_facts t
  show V c main_v16 (((cfg2.win 0).blk t).view.emb (ix2 p k)) = V c main_v16 _
  refine congrArg (V c main_v16) (funext fun a => Fin.ext ?_)
  match a with
  | ⟨0, _⟩ => show win2_0.index t (0 : Fin 2) * 584 + 1 * p.val = win2_3.index t (0 : Fin 2) * 584 + 1 * p.val; omega
  | ⟨1, _⟩ => show win2_0.index t (1 : Fin 2) * 1280 + 1 * k.val = k.val; omega

/-- The weight block at any point is the weight array. -/
theorem read_w (c : Dev nD) (t : Fin cfg2.N) (p : Fin 584) (q k : Fin 1280) :
    iblk2 V c 1 t (ix2 k q) = V c main_v15 (ix2 k (((cfg2.win 3).blk t).view.emb (ix2 p q) 1)) := by
  obtain ⟨e0, e1, e2, e3, e4, e5, e6⟩ := idx_facts t
  show V c main_v15 (((cfg2.win 1).blk t).view.emb (ix2 k q)) = V c main_v15 _
  refine congrArg (V c main_v15) (funext fun a => Fin.ext ?_)
  match a with
  | ⟨0, _⟩ => show win2_1.index t (0 : Fin 2) * 1280 + 1 * k.val = k.val; omega
  | ⟨1, _⟩ => show win2_1.index t (1 : Fin 2) * 1280 + 1 * q.val = win2_3.index t (1 : Fin 2) * 1280 + 1 * q.val; omega

/-- The bias block at any point is the bias array. -/
theorem read_b (c : Dev nD) (t : Fin cfg2.N) (p : Fin 584) (q : Fin 1280) :
    iblk2 V c 2 t (ix1 q) = V c main_arg5 (ix1 (((cfg2.win 3).blk t).view.emb (ix2 p q) 1)) := by
  obtain ⟨e0, e1, e2, e3, e4, e5, e6⟩ := idx_facts t
  show V c main_arg5 (((cfg2.win 2).blk t).view.emb (ix1 q)) = V c main_arg5 _
  refine congrArg (V c main_arg5) (funext fun a => Fin.ext ?_)
  match a with
  | ⟨0, _⟩ => show win2_2.index t (0 : Fin 1) * 1280 + 1 * q.val = win2_3.index t (1 : Fin 2) * 1280 + 1 * q.val; omega

/-- The projection at an entry. -/
theorem mmBias_entry (a : (⟨2, ![4672, 1280]⟩ : Shape).Idx → EReal) (w : (⟨2, ![1280, 1280]⟩ : Shape).Idx → EReal)
    (b : (⟨1, ![1280]⟩ : Shape).Idx → EReal) (i : (⟨2, ![4672, 1280]⟩ : Shape).Idx) :
    Cert.Spec.mmBias a w b i = (∑ k : Fin 1280, a (ix2 (i 0) k) * w (ix2 k (i 1))) + b (ix1 (i 1)) := rfl

/-- The body's result on the blocks of point `t`, at an entry, is the projection of the arrays at that entry of block `t`. -/
theorem block_entry (c : Dev nD) (t : Fin cfg2.N) (p : Fin 584) (q : Fin 1280) :
    k2_pay1 (F := Ideal) (iblk2 V c 0 t) (iblk2 V c 1 t) (iblk2 V c 2 t) (ix2 p q)
      = Cert.Spec.mmBias (V c main_v16) (V c main_v15) (V c main_arg5) (((cfg2.win 3).blk t).view.emb (ix2 p q)) := by
  rw [pay, read_b V c t p q, mmBias_entry]
  refine congrArg (· + _) (Finset.sum_congr rfl fun k _ => ?_)
  rw [read_in V c t p q k, read_w V c t p q k]

/-- What point `t` writes back is block `t` of the projection of the arrays the region found. -/
theorem flushed_eq (c : Dev nD) (t : Fin cfg2.N) :
    (dat2 (F := Ideal) V c).flushed 3 t = ((cfg2.win 3).blk t).view.read (Elt Ideal) (Cert.Spec.mmBias (V c main_v16) (V c main_v15) (V c main_arg5)) := by
  show (cfg2.win 3).cut (grid2.coords t) ((dat2 (F := Ideal) V c).after 3 t) = _
  rw [after2_3]
  unfold out2_3
  rw [View.canon_unit_zero zero2]
  simp only [View.ld_unit_zero (S := S584x1280) zero2, View.ld_unit_zero (S := S1280x1280) zero2, View.ld_unit_zero (S := S1280) zero1]
  funext j
  show k2_pay1 (F := Ideal) (iblk2 V c 0 t) (iblk2 V c 1 t) (iblk2 V c 2 t) j = Cert.Spec.mmBias (V c main_v16) (V c main_v15) (V c main_arg5) (((cfg2.win 3).blk t).view.emb j)
  rw [eq_ix2 (n0 := 584) (n1 := 1280) j]
  exact block_entry V c t (j 0) (j 1)

/-- An index of the array is in point `t`'s block iff each coordinate is in the block's range on its axis. -/
theorem mem_blk (t : Fin cfg2.N) (i : S4672x1280.Idx) :
    i ∈ ((cfg2.win 3).blk t).view.set ↔ ∀ a : Fin 2, win2_3.index t a * S584x1280.size a ≤ (i a).val ∧ (i a).val < win2_3.index t a * S584x1280.size a + S584x1280.size a := by
  show i ∈ ((View.whole main_v17).slice (win2_3.rect t)).set ↔ _
  rw [View.set_slice_whole, Rect.mem_set_unit]
  exact Iff.rfl

/-- Every index of the output array is in the block of the point its row falls in: row `r` is in block `r / 584`. -/
theorem cover (i : S4672x1280.Idx) :
    ∃ t : Fin cfg2.N, (cfg2.win 3).flush t = true ∧ i ∈ ((cfg2.win 3).blk t).view.set := by
  have hi0 : (i 0).val < 4672 := (i 0).isLt
  have hi1 : (i 1).val < 1280 := (i 1).isLt
  have hlt : (i 0).val / 584 < cfg2.N := by show (i 0).val / 584 < 8; omega
  obtain ⟨e0, e1, e2, e3, e4, e5, e6⟩ := idx_facts ⟨(i 0).val / 584, hlt⟩
  have e5' : win2_3.index ⟨(i 0).val / 584, hlt⟩ (0 : Fin 2) = (i 0).val / 584 := e5
  refine ⟨⟨(i 0).val / 584, hlt⟩, flush2_3 _, ?_⟩
  rw [mem_blk]
  intro a
  match a with
  | ⟨0, _⟩ =>
    show win2_3.index ⟨(i 0).val / 584, hlt⟩ (0 : Fin 2) * 584 ≤ (i 0).val ∧ (i 0).val < win2_3.index ⟨(i 0).val / 584, hlt⟩ (0 : Fin 2) * 584 + 584
    omega
  | ⟨1, _⟩ =>
    show win2_3.index ⟨(i 0).val / 584, hlt⟩ (1 : Fin 2) * 1280 ≤ (i 1).val ∧ (i 1).val < win2_3.index ⟨(i 0).val / 584, hlt⟩ (1 : Fin 2) * 1280 + 1280
    omega

/-- After region 2 its output array is the projection of the arrays the region found. -/
theorem final (c : Dev nD) :
    (dat2 (F := Ideal) V c).arrAt 3 cfg2.N = Cert.Spec.mmBias (V c main_v16) (V c main_v15) (V c main_arg5) :=
  (dat2 (F := Ideal) V c).arrAt_eq_of_cover 3 (Cert.Spec.mmBias (V c main_v16) (V c main_v15) (V c main_arg5))
    (fun t _ => flushed_eq V c t) cover

end Cert.KernelIdeal.Reg2

end
-- ==== Proof.KHost.lean ====
/-
  The contents of the buffers at every boundary between @main's stretches of layout operations and its three
  regions, bottom up: after the first stretches the padded token rows, the transposed value weight and the value
  bias; after region 0 their projection; after the next stretch the values head by head and the mask flattened to
  128 heads; after region 1 the attention weights and the attention product; then the product re-laid to token rows
  and padded, the transposed output weight; after region 2 their projection; after the last stretch its first 4616
  rows as (batch, position, feature). A buffer no operation and no region writes keeps its contents. The two results
  are therefore the stream terms `Stream.kOut` and `Stream.kAw` of the launch arguments.
-/
import proofs.«165519_j29884382445590_1_alg».proof.Proof.Gen.KernelIdeal.Frame
import proofs.«165519_j29884382445590_1_alg».proof.Proof.Spec
import proofs.«165519_j29884382445590_1_alg».proof.Proof.KStream
import proofs.«165519_j29884382445590_1_alg».proof.Proof.KReg0
import proofs.«165519_j29884382445590_1_alg».proof.Proof.KReg1
import proofs.«165519_j29884382445590_1_alg».proof.Proof.KReg2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Host

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! The entry of the first projection: the padded rows, the transposed value weight, the value bias. -/

theorem W2_v4 (c : Dev nD) :
    W2 (F := Ideal) m ρ c (Proc.devRef .tc main_v4)
      = pad S4672x1280 ![0, 0] ![56, 0] ![0, 0]
          (shapeCast S4616x1280 (m ((c : Thread nD τ).loc main_arg0)) shapeCasts_S8x577x1280_S4616x1280)
          (sitofp (F := Ideal) .f32 (constantI S_ 32 0#32)) pads_S4616x1280_S4672x1280_0560_000 h_S_ := by
  show StableHlo.after hostOps0_1 (StableHlo.after hostOps0 (W0 m ρ c)) (Proc.devRef .tc main_v4) = _
  after_results
  rfl

theorem W2_v3 (c : Dev nD) :
    W2 (F := Ideal) m ρ c (Proc.devRef .tc main_v3)
      = transpose S1280x1280 [1, 0]
          (extractStridedSlice S1280x1280 ![2560, 0] (m ((c : Thread nD τ).loc main_arg2)) slices_S3840x1280_S1280x1280_2560_0)
          transposes_S1280x1280_S1280x1280_1_0 := by
  show StableHlo.after hostOps0_1 (StableHlo.after hostOps0 (W0 m ρ c)) (Proc.devRef .tc main_v3) = _
  after_results

theorem W2_v1 (c : Dev nD) :
    W2 (F := Ideal) m ρ c (Proc.devRef .tc main_v1)
      = extractStridedSlice S1280 ![2560] (m ((c : Thread nD τ).loc main_arg3)) slices_S3840_S1280_2560 := by
  show StableHlo.after hostOps0_1 (StableHlo.after hostOps0 (W0 m ρ c)) (Proc.devRef .tc main_v1) = _
  after_results

theorem W2_arg1 (c : Dev nD) :
    W2 (F := Ideal) m ρ c (Proc.devRef .tc main_arg1) = m ((c : Thread nD τ).loc main_arg1) := by
  show StableHlo.after hostOps0_1 (StableHlo.after hostOps0 (W0 m ρ c)) (Proc.devRef .tc main_arg1) = _
  after_results

theorem W2_arg4 (c : Dev nD) :
    W2 (F := Ideal) m ρ c (Proc.devRef .tc main_arg4) = m ((c : Thread nD τ).loc main_arg4) := by
  show StableHlo.after hostOps0_1 (StableHlo.after hostOps0 (W0 m ρ c)) (Proc.devRef .tc main_arg4) = _
  after_results

theorem W2_arg5 (c : Dev nD) :
    W2 (F := Ideal) m ρ c (Proc.devRef .tc main_arg5) = m ((c : Thread nD τ).loc main_arg5) := by
  show StableHlo.after hostOps0_1 (StableHlo.after hostOps0 (W0 m ρ c)) (Proc.devRef .tc main_arg5) = _
  after_results

/-! The first region leaves the projection of the padded rows. -/

theorem W3_v5 (c : Dev nD) :
    W3 (F := Ideal) m ρ c (Proc.devRef .tc main_v5)
      = Cert.Spec.mmBias
          (pad S4672x1280 ![0, 0] ![56, 0] ![0, 0]
            (shapeCast S4616x1280 (m ((c : Thread nD τ).loc main_arg0)) shapeCasts_S8x577x1280_S4616x1280)
            (sitofp (F := Ideal) .f32 (constantI S_ 32 0#32)) pads_S4616x1280_S4672x1280_0560_000 h_S_)
          (transpose S1280x1280 [1, 0]
            (extractStridedSlice S1280x1280 ![2560, 0] (m ((c : Thread nD τ).loc main_arg2)) slices_S3840x1280_S1280x1280_2560_0)
            transposes_S1280x1280_S1280x1280_1_0)
          (extractStridedSlice S1280 ![2560] (m ((c : Thread nD τ).loc main_arg3)) slices_S3840_S1280_2560) := by
  refine ((W3_arr m ρ c 3).trans (Cert.KernelIdeal.Reg0.final (V2 m ρ) c)).trans ?_
  show Cert.Spec.mmBias (W2 m ρ c (Proc.devRef .tc main_v4)) (W2 m ρ c (Proc.devRef .tc main_v3)) (W2 m ρ c (Proc.devRef .tc main_v1)) = _
  rw [W2_v4, W2_v3, W2_v1]

theorem W3_arg1 (c : Dev nD) :
    W3 (F := Ideal) m ρ c (Proc.devRef .tc main_arg1) = m ((c : Thread nD τ).loc main_arg1) :=
  (W3_of_ne m ρ c main_arg1 (by decide)).trans (W2_arg1 m ρ c)

theorem W3_arg4 (c : Dev nD) :
    W3 (F := Ideal) m ρ c (Proc.devRef .tc main_arg4) = m ((c : Thread nD τ).loc main_arg4) :=
  (W3_of_ne m ρ c main_arg4 (by decide)).trans (W2_arg4 m ρ c)

theorem W3_arg5 (c : Dev nD) :
    W3 (F := Ideal) m ρ c (Proc.devRef .tc main_arg5) = m ((c : Thread nD τ).loc main_arg5) :=
  (W3_of_ne m ρ c main_arg5 (by decide)).trans (W2_arg5 m ρ c)

/-! The entry of the attention region: the values head by head, and the mask of the 128 (batch, head) pairs. -/

theorem W4_v9 (c : Dev nD) :
    W4 (F := Ideal) m ρ c (Proc.devRef .tc main_v9)
      = Cert.KernelIdeal.Stream.kV9 (m ((c : Thread nD τ).loc main_arg0)) (m ((c : Thread nD τ).loc main_arg2))
          (m ((c : Thread nD τ).loc main_arg3)) := by
  show StableHlo.after hostOps1 (W3 m ρ c) (Proc.devRef .tc main_v9) = _
  after_results
  rw [W3_v5]
  rfl

theorem W4_v10 (c : Dev nD) :
    W4 (F := Ideal) m ρ c (Proc.devRef .tc main_v10)
      = shapeCast S128x577x577 (m ((c : Thread nD τ).loc main_arg1)) shapeCasts_S8x16x577x577_S128x577x577 := by
  show StableHlo.after hostOps1 (W3 m ρ c) (Proc.devRef .tc main_v10) = _
  after_results
  rw [W3_arg1]
  rfl

theorem W4_arg4 (c : Dev nD) :
    W4 (F := Ideal) m ρ c (Proc.devRef .tc main_arg4) = m ((c : Thread nD τ).loc main_arg4) := by
  show StableHlo.after hostOps1 (W3 m ρ c) (Proc.devRef .tc main_arg4) = _
  after_results
  exact W3_arg4 m ρ c

theorem W4_arg5 (c : Dev nD) :
    W4 (F := Ideal) m ρ c (Proc.devRef .tc main_arg5) = m ((c : Thread nD τ).loc main_arg5) := by
  show StableHlo.after hostOps1 (W3 m ρ c) (Proc.devRef .tc main_arg5) = _
  after_results
  exact W3_arg5 m ρ c

/-! The attention region leaves the weights and the product. -/

theorem W5_v11_0 (c : Dev nD) :
    W5 (F := Ideal) m ρ c (Proc.devRef .tc main_v11_0)
      = Cert.KernelIdeal.Stream.kAw (m ((c : Thread nD τ).loc main_arg1)) := by
  refine ((W5_arr m ρ c 2).trans (Cert.KernelIdeal.Reg1.final_aw (V4 m ρ) c)).trans ?_
  show Cert.Spec.awSpec (W4 m ρ c (Proc.devRef .tc main_v10)) = _
  rw [W4_v10]
  rfl

theorem W5_v11_1 (c : Dev nD) :
    W5 (F := Ideal) m ρ c (Proc.devRef .tc main_v11_1)
      = Cert.KernelIdeal.Stream.kAo (m ((c : Thread nD τ).loc main_arg0)) (m ((c : Thread nD τ).loc main_arg1))
          (m ((c : Thread nD τ).loc main_arg2)) (m ((c : Thread nD τ).loc main_arg3)) := by
  refine ((W5_arr m ρ c 3).trans (Cert.KernelIdeal.Reg1.final_ao (V4 m ρ) c)).trans ?_
  show Cert.Spec.aoSpec (W4 m ρ c (Proc.devRef .tc main_v10)) (W4 m ρ c (Proc.devRef .tc main_v9)) = _
  rw [W4_v10, W4_v9]
  rfl

theorem W5_arg4 (c : Dev nD) :
    W5 (F := Ideal) m ρ c (Proc.devRef .tc main_arg4) = m ((c : Thread nD τ).loc main_arg4) :=
  (W5_of_ne m ρ c main_arg4 (by decide)).trans (W4_arg4 m ρ c)

theorem W5_arg5 (c : Dev nD) :
    W5 (F := Ideal) m ρ c (Proc.devRef .tc main_arg5) = m ((c : Thread nD τ).loc main_arg5) :=
  (W5_of_ne m ρ c main_arg5 (by decide)).trans (W4_arg5 m ρ c)

/-! The entry of the second projection: the heads joined back into padded rows, the transposed output weight, the
    output bias; and the attention weights, which no later operation writes. -/

theorem W7_v16 (c : Dev nD) :
    W7 (F := Ideal) m ρ c (Proc.devRef .tc main_v16)
      = pad S4672x1280 ![0, 0] ![56, 0] ![0, 0]
          (shapeCast S4616x1280
            (transpose S8x577x16x80 [0, 2, 1, 3]
              (shapeCast S8x16x577x80
                (Cert.KernelIdeal.Stream.kAo (m ((c : Thread nD τ).loc main_arg0)) (m ((c : Thread nD τ).loc main_arg1))
                  (m ((c : Thread nD τ).loc main_arg2)) (m ((c : Thread nD τ).loc main_arg3)))
                shapeCasts_S128x577x80_S8x16x577x80)
              transposes_S8x16x577x80_S8x577x16x80_0_2_1_3)
            shapeCasts_S8x577x16x80_S4616x1280)
          (sitofp (F := Ideal) .f32 (constantI S_ 32 0#32)) pads_S4616x1280_S4672x1280_0560_000 h_S_ := by
  show StableHlo.after hostOps2_1 (StableHlo.after hostOps2 (W5 m ρ c)) (Proc.devRef .tc main_v16) = _
  after_results
  rw [W5_v11_1]
  rfl

theorem W7_v15 (c : Dev nD) :
    W7 (F := Ideal) m ρ c (Proc.devRef .tc main_v15)
      = transpose S1280x1280 [1, 0] (m ((c : Thread nD τ).loc main_arg4)) transposes_S1280x1280_S1280x1280_1_0 := by
  show StableHlo.after hostOps2_1 (StableHlo.after hostOps2 (W5 m ρ c)) (Proc.devRef .tc main_v15) = _
  after_results
  rw [W5_arg4]

theorem W7_arg5 (c : Dev nD) :
    W7 (F := Ideal) m ρ c (Proc.devRef .tc main_arg5) = m ((c : Thread nD τ).loc main_arg5) := by
  show StableHlo.after hostOps2_1 (StableHlo.after hostOps2 (W5 m ρ c)) (Proc.devRef .tc main_arg5) = _
  after_results
  exact W5_arg5 m ρ c

theorem W7_v11_0 (c : Dev nD) :
    W7 (F := Ideal) m ρ c (Proc.devRef .tc main_v11_0)
      = Cert.KernelIdeal.Stream.kAw (m ((c : Thread nD τ).loc main_arg1)) := by
  show StableHlo.after hostOps2_1 (StableHlo.after hostOps2 (W5 m ρ c)) (Proc.devRef .tc main_v11_0) = _
  after_results
  exact W5_v11_0 m ρ c

/-! The second region leaves the projection of the padded rows. -/

theorem W8_v17 (c : Dev nD) :
    W8 (F := Ideal) m ρ c (Proc.devRef .tc main_v17)
      = Cert.Spec.mmBias
          (pad S4672x1280 ![0, 0] ![56, 0] ![0, 0]
            (shapeCast S4616x1280
              (transpose S8x577x16x80 [0, 2, 1, 3]
                (shapeCast S8x16x577x80
                  (Cert.KernelIdeal.Stream.kAo (m ((c : Thread nD τ).loc main_arg0)) (m ((c : Thread nD τ).loc main_arg1))
                    (m ((c : Thread nD τ).loc main_arg2)) (m ((c : Thread nD τ).loc main_arg3)))
                  shapeCasts_S128x577x80_S8x16x577x80)
                transposes_S8x16x577x80_S8x577x16x80_0_2_1_3)
              shapeCasts_S8x577x16x80_S4616x1280)
            (sitofp (F := Ideal) .f32 (constantI S_ 32 0#32)) pads_S4616x1280_S4672x1280_0560_000 h_S_)
          (transpose S1280x1280 [1, 0] (m ((c : Thread nD τ).loc main_arg4)) transposes_S1280x1280_S1280x1280_1_0)
          (m ((c : Thread nD τ).loc main_arg5)) := by
  refine ((W8_arr m ρ c 3).trans (Cert.KernelIdeal.Reg2.final (V7 m ρ) c)).trans ?_
  show Cert.Spec.mmBias (W7 m ρ c (Proc.devRef .tc main_v16)) (W7 m ρ c (Proc.devRef .tc main_v15))
    (W7 m ρ c (Proc.devRef .tc main_arg5)) = _
  rw [W7_v16, W7_v15, W7_arg5]

theorem W8_v11_0 (c : Dev nD) :
    W8 (F := Ideal) m ρ c (Proc.devRef .tc main_v11_0)
      = Cert.KernelIdeal.Stream.kAw (m ((c : Thread nD τ).loc main_arg1)) :=
  (W8_of_ne m ρ c main_v11_0 (by decide)).trans (W7_v11_0 m ρ c)

/-- At the last boundary of @main the first result holds the output stream's term of the launch arguments. -/
theorem W9_v19 (c : Dev nD) :
    W9 (F := Ideal) m ρ c (Proc.devRef .tc main_v19)
      = Cert.KernelIdeal.Stream.kOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  show StableHlo.after hostOps3 (W8 m ρ c) (Proc.devRef .tc main_v19) = _
  after_results
  rw [W8_v17]
  rfl

/-- At the last boundary of @main the second result holds the attention weights of the launch mask. -/
theorem W9_v11_0 (c : Dev nD) :
    W9 (F := Ideal) m ρ c (Proc.devRef .tc main_v11_0) = Cert.KernelIdeal.Stream.kAw (m ((c : Thread nD τ).loc main_arg1)) := by
  show StableHlo.after hostOps3 (W8 m ρ c) (Proc.devRef .tc main_v11_0) = _
  after_results
  exact W8_v11_0 m ρ c

end Cert.KernelIdeal.Host

end
-- ==== Proof.KValue.lean ====
/-
  The idealized kernel program's run with both results named as terms of the launch arguments: the run that reads the
  two result buffers at the last boundary, composed with what that boundary holds.
-/
import proofs.«165519_j29884382445590_1_alg».proof.Proof.KRun
import proofs.«165519_j29884382445590_1_alg».proof.Proof.KHost
import proofs.«165519_j29884382445590_1_alg».proof.Proof.KStream

set_option maxRecDepth 16384

noncomputable section

open scoped BigOperators

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The idealized kernel's run with its two results as terms of the launch arguments: the output stream and
    the attention weights, the arguments unchanged. -/
theorem run : θ_run (defs (F := Ideal)) (onTc (τ := τ) (main (F := Ideal))) ⟨m, fun _ => 0, ρ⟩ (fun r => ∀ c : Dev nD,
      r.2.mem ((c.tc : Thread nD τ).loc main_v19)
        = Cert.KernelIdeal.Stream.kOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v11_0) = Cert.KernelIdeal.Stream.kAw (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
      ⟨(h c).1.trans (Cert.KernelIdeal.Host.W9_v19 m ρ c), (h c).2.1.trans (Cert.KernelIdeal.Host.W9_v11_0 m ρ c), (h c).2.2⟩)
    (Cert.KernelIdeal.Named.run_named (F := Ideal) m ρ)

end Cert.KernelIdeal.Value

end
-- ==== Proof.BridgeAw.lean ====
/-
  The reference's mask pipeline, read stage by stage on one (batch, head) matrix: the column sums and the quotient
  by them, the row sums and the quotient by them, the mean with the transpose, the column maxima folded from minus
  infinity and the subtraction of one fifth of them, the clamp at zero, the last row normalisation. Each stage is a
  map of 577 × 577 matrices and their composite is `Spec.maskPipe`; the flattening of (batch, head) to 128 reads
  head `n` at batch `n / 16`, head `n % 16`, on both sides.
-/
import proofs.«165519_j29884382445590_1_alg».proof.Proof.KStream
import proofs.«165519_j29884382445590_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.ValueIdx

namespace Aw

open Cert.ReferenceIdeal Cert.ReferenceIdeal.Gen Cert.ReferenceIdeal.Read

/-- The matrix of batch `b`, head `h` of a stack of 8 × 16 matrices. -/
abbrev slab (y : Vec Ideal S8x16x577x577 .f32) (b : Fin 8) (h : Fin 16) : Cert.Spec.Mat :=
  fun p q => y (ix4 b h p q)

/-! ### The index maps of the layout operations, at explicit coordinates -/

private theorem idx_colSum (b : Fin 8) (h : Fin 16) (p q k : Fin 577) :
    idx_main_v10 (idx_main_v11 (idx_main_v12 (ix4 b h p q))) k = ix4 b h k q := by
  funext a; match a with | ⟨0, _⟩ => rfl | ⟨1, _⟩ => rfl | ⟨2, _⟩ => rfl | ⟨3, _⟩ => rfl

private theorem idx_rowSum (b : Fin 8) (h : Fin 16) (p q k : Fin 577) :
    idx_main_v14 (idx_main_v15 (idx_main_v16 (ix4 b h p q))) k = ix4 b h p k := by
  funext a; match a with | ⟨0, _⟩ => rfl | ⟨1, _⟩ => rfl | ⟨2, _⟩ => rfl | ⟨3, _⟩ => rfl

private theorem idx_transpose (b : Fin 8) (h : Fin 16) (p q : Fin 577) :
    idx_main_v18 (ix4 b h p q) = ix4 b h q p := by
  funext a; match a with | ⟨0, _⟩ => rfl | ⟨1, _⟩ => rfl | ⟨2, _⟩ => rfl | ⟨3, _⟩ => rfl

private theorem idx_colMax (b : Fin 8) (h : Fin 16) (p q : Fin 577) :
    idx_main_v23 (idx_main_v26 (ix4 b h p q)) = ix3 b h q := by
  funext a; match a with | ⟨0, _⟩ => rfl | ⟨1, _⟩ => rfl | ⟨2, _⟩ => rfl

private theorem idx_rowSum' (b : Fin 8) (h : Fin 16) (p q k : Fin 577) :
    idx_main_v30 (idx_main_v31 (idx_main_v32 (ix4 b h p q))) k = ix4 b h p k := by
  funext a; match a with | ⟨0, _⟩ => rfl | ⟨1, _⟩ => rfl | ⟨2, _⟩ => rfl | ⟨3, _⟩ => rfl

/-- A reduced index with coordinate `k` put back on axis 2. -/
private theorem lift_col (hR : S8x16x577x577.Reduces [2] S8x16x577) (b : Fin 8) (h : Fin 16) (q : Fin 577)
    (k : Fin (S8x16x577x577.size 2)) : hR.lift (ix3 b h q) k = ix4 b h (⟨k.val, k.isLt⟩ : Fin 577) q := by
  funext c; apply Fin.ext
  match c with | ⟨0, _⟩ => rfl | ⟨1, _⟩ => rfl | ⟨2, _⟩ => rfl | ⟨3, _⟩ => rfl

/-! ### The float constants -/

private theorem cst_zero (j : S_.Idx) : (val_main_cst (F := Ideal)) j = 0 := Ideal.ofBits_zero_f32
private theorem cst_0_zero (j : S_.Idx) : (val_main_cst_0 (F := Ideal)) j = 0 := Ideal.ofBits_zero_f32
private theorem cst_5_zero (j : S_.Idx) : (val_main_cst_5 (F := Ideal)) j = 0 := Ideal.ofBits_zero_f32

/-! ### The reference's stages at explicit coordinates -/

theorem v13_at (x1 : Vec Ideal S8x16x577x577 .f32) (b : Fin 8) (h : Fin 16) (p q : Fin 577) :
    val_main_v13 (F := Ideal) x1 (ix4 b h p q)
      = Ideal.div (x1 (ix4 b h p q)) (∑ k : Fin 577, x1 (ix4 b h k q)) := by
  rw [val_main_v13_apply, val_main_v12_apply, val_main_v11_apply, val_main_v10_apply, cst_zero, zero_add]
  simp only [idx_colSum]
  rfl

theorem v17_at (x1 : Vec Ideal S8x16x577x577 .f32) (b : Fin 8) (h : Fin 16) (p q : Fin 577) :
    val_main_v17 (F := Ideal) x1 (ix4 b h p q)
      = Ideal.div (val_main_v13 (F := Ideal) x1 (ix4 b h p q)) (∑ k : Fin 577, val_main_v13 (F := Ideal) x1 (ix4 b h p k)) := by
  rw [val_main_v17_apply, val_main_v16_apply, val_main_v15_apply, val_main_v14_apply, cst_0_zero, zero_add]
  simp only [idx_rowSum]
  rfl

theorem v21_at (x1 : Vec Ideal S8x16x577x577 .f32) (b : Fin 8) (h : Fin 16) (p q : Fin 577) :
    val_main_v21 (F := Ideal) x1 (ix4 b h p q)
      = (val_main_v17 (F := Ideal) x1 (ix4 b h p q) + val_main_v17 (F := Ideal) x1 (ix4 b h q p))
          * Ideal.ofBits .f32 0x3F000000#32 := by
  rw [val_main_v21_apply, val_main_v19_apply, val_main_v18_apply, val_main_v20_apply, val_main_cst_1_apply,
    idx_transpose]
  rfl

theorem v22_at (x1 : Vec Ideal S8x16x577x577 .f32) (b : Fin 8) (h : Fin 16) (q : Fin 577) :
    val_main_v22 (F := Ideal) x1 (ix3 b h q)
      = (Finset.univ : Finset (Fin 577)).fold max (Ideal.ofBits .f32 0xFF800000#32)
          (fun k => val_main_v21 (F := Ideal) x1 (ix4 b h k q)) := by
  unfold val_main_v22
  generalize val_main_v21 (F := Ideal) x1 = y
  have hR : S8x16x577x577.Reduces [2] S8x16x577 := by decide
  refine (Host.reduce_eq_fold_single (FloatOps.maximumf (F := Ideal) (φ := .f32)) y (val_main_cst_2 (F := Ideal))
    reducesTo_S8x16x577x577_S8x16x577_d2 hR h_S_ (ix3 b h q)).trans ?_
  have hf : (y ∘ hR.lift (ix3 b h q)) = fun k : Fin 577 => y (ix4 b h k q) :=
    funext fun k => congrArg y (lift_col hR b h q k)
  exact congrArg (fun f => Finset.fold max (Ideal.ofBits .f32 0xFF800000#32) f (Finset.univ : Finset (Fin 577))) hf

theorem v27_at (x1 : Vec Ideal S8x16x577x577 .f32) (b : Fin 8) (h : Fin 16) (p q : Fin 577) :
    val_main_v27 (F := Ideal) x1 (ix4 b h p q)
      = val_main_v21 (F := Ideal) x1 (ix4 b h p q)
          - val_main_v22 (F := Ideal) x1 (ix3 b h q) * Ideal.ofBits .f32 0x3E4CCCCD#32 := by
  rw [val_main_v27_apply, val_main_v26_apply, val_main_v25_apply, val_main_v23_apply, val_main_v24_apply,
    val_main_cst_3_apply, idx_colMax]
  rfl

theorem v29_at (x1 : Vec Ideal S8x16x577x577 .f32) (b : Fin 8) (h : Fin 16) (p q : Fin 577) :
    val_main_v29 (F := Ideal) x1 (ix4 b h p q)
      = max (val_main_v27 (F := Ideal) x1 (ix4 b h p q)) (Ideal.ofBits .f32 0x00000000#32) := by
  rw [val_main_v29_apply, val_main_v28_apply, val_main_cst_4_apply]
  rfl

theorem v33_at (x1 : Vec Ideal S8x16x577x577 .f32) (b : Fin 8) (h : Fin 16) (p q : Fin 577) :
    val_main_v33 (F := Ideal) x1 (ix4 b h p q)
      = Ideal.div (val_main_v29 (F := Ideal) x1 (ix4 b h p q)) (∑ k : Fin 577, val_main_v29 (F := Ideal) x1 (ix4 b h p k)) := by
  rw [val_main_v33_apply, val_main_v32_apply, val_main_v31_apply, val_main_v30_apply, cst_5_zero, zero_add]
  simp only [idx_rowSum']
  rfl

/-! ### The stages as maps of matrices -/

theorem slab_v13 (x1 : Vec Ideal S8x16x577x577 .f32) (b : Fin 8) (h : Fin 16) :
    slab (val_main_v13 (F := Ideal) x1) b h = Cert.Spec.colNorm (slab x1 b h) :=
  funext fun p => funext fun q => v13_at x1 b h p q

theorem slab_v17 (x1 : Vec Ideal S8x16x577x577 .f32) (b : Fin 8) (h : Fin 16) :
    slab (val_main_v17 (F := Ideal) x1) b h = Cert.Spec.rowNorm (slab (val_main_v13 (F := Ideal) x1) b h) :=
  funext fun p => funext fun q => v17_at x1 b h p q

theorem slab_v21 (x1 : Vec Ideal S8x16x577x577 .f32) (b : Fin 8) (h : Fin 16) :
    slab (val_main_v21 (F := Ideal) x1) b h = Cert.Spec.symHalf (slab (val_main_v17 (F := Ideal) x1) b h) :=
  funext fun p => funext fun q => v21_at x1 b h p q

theorem slab_v27 (x1 : Vec Ideal S8x16x577x577 .f32) (b : Fin 8) (h : Fin 16) :
    slab (val_main_v27 (F := Ideal) x1) b h = Cert.Spec.colMaxSub (slab (val_main_v21 (F := Ideal) x1) b h) :=
  funext fun p => funext fun q => by
    show val_main_v27 (F := Ideal) x1 (ix4 b h p q) = _
    rw [v27_at, v22_at]
    rfl

theorem slab_v29 (x1 : Vec Ideal S8x16x577x577 .f32) (b : Fin 8) (h : Fin 16) :
    slab (val_main_v29 (F := Ideal) x1) b h = Cert.Spec.relu (slab (val_main_v27 (F := Ideal) x1) b h) :=
  funext fun p => funext fun q => v29_at x1 b h p q

theorem slab_v33 (x1 : Vec Ideal S8x16x577x577 .f32) (b : Fin 8) (h : Fin 16) :
    slab (val_main_v33 (F := Ideal) x1) b h = Cert.Spec.rowNorm (slab (val_main_v29 (F := Ideal) x1) b h) :=
  funext fun p => funext fun q => v33_at x1 b h p q

/-- The reference's last stage before the flattening, on one (batch, head) matrix, is the mask pipeline. -/
theorem slab_pipe (x1 : Vec Ideal S8x16x577x577 .f32) (b : Fin 8) (h : Fin 16) :
    slab (val_main_v33 (F := Ideal) x1) b h = Cert.Spec.maskPipe (slab x1 b h) := by
  rw [slab_v33, slab_v29, slab_v27, slab_v21, slab_v17, slab_v13]
  rfl

/-! ### The flattening of (batch, head) to 128 -/

/-- Head `n` of the flattened stack is the matrix of batch `n / 16`, head `n % 16`. -/
theorem head_shapeCast (x1 : Vec Ideal S8x16x577x577 .f32) (hc : S8x16x577x577.ShapeCasts S128x577x577) (n : Fin 128) :
    Cert.Spec.head (shapeCast S128x577x577 x1 hc) n
      = slab x1 ⟨n.val / 16, by have := n.isLt; omega⟩ ⟨n.val % 16, by omega⟩ := by
  funext p q
  refine shapeCast_apply x1 hc (ix3 n p q) (ix4 _ _ p q) ?_
  rewrite [Shape.rowMajor_val_four, Shape.rowMajor_val_three]
  have hn := n.isLt
  show ((n.val / 16 * 16 + n.val % 16) * 577 + p.val) * 577 + q.val = (n.val * 577 + p.val) * 577 + q.val
  omega

/-- The flattened index `(n, p, q)` is read at batch `n / 16`, head `n % 16`, row `p`, column `q`. -/
theorem idx_flat (i : S128x577x577.Idx) :
    idx_main_v34 i = ix4 (⟨(i 0).val / 16, by have h0 : (i 0).val < 128 := (i 0).isLt; show (i 0).val / 16 < 8; omega⟩ : Fin 8)
      (⟨(i 0).val % 16, by omega⟩ : Fin 16) (i 1) (i 2) := by
  have h0 : (i 0).val < 128 := (i 0).isLt
  have h1 : (i 1).val < 577 := (i 1).isLt
  have h2 : (i 2).val < 577 := (i 2).isLt
  funext a; apply Fin.ext
  match a with
  | ⟨0, _⟩ => show (((i 0).val * 577 + (i 1).val) * 577 + (i 2).val) / 5326864 = (i 0).val / 16; omega
  | ⟨1, _⟩ => show (((i 0).val * 577 + (i 1).val) * 577 + (i 2).val) / 332929 % 16 = (i 0).val % 16; omega
  | ⟨2, _⟩ => show (((i 0).val * 577 + (i 1).val) * 577 + (i 2).val) / 577 % 577 = (i 1).val; omega
  | ⟨3, _⟩ => show (((i 0).val * 577 + (i 1).val) * 577 + (i 2).val) % 577 = (i 2).val; omega

end Aw

/-- The kernel's attention weights are the reference's: both are the mask pipeline on the matrix of head
    `n = 16·b + h` of the mask. -/
theorem aw_eq (x1 : Vec Ideal Cert.KernelIdeal.S8x16x577x577 .f32) :
    Cert.KernelIdeal.Stream.kAw x1 = Cert.ReferenceIdeal.Read.val_main_v34 (F := Ideal) x1 := by
  funext i
  rw [Cert.ReferenceIdeal.Read.val_main_v34_apply, Aw.idx_flat]
  have e := congrFun (congrFun (Aw.slab_pipe x1
    ⟨(i 0).val / 16, by have h0 : (i 0).val < 128 := (i 0).isLt; show (i 0).val / 16 < 8; omega⟩
    ⟨(i 0).val % 16, by omega⟩) (i 1)) (i 2)
  refine Eq.trans ?_ e.symm
  exact congrArg (fun m : Cert.Spec.Mat => Cert.Spec.maskPipe m (i 1) (i 2)) (Aw.head_shapeCast x1 _ (i 0))

end Cert.Bridge

end
-- ==== Proof.BridgeProj.lean ====
/-
  The padded projection read at a kept entry: the padding adds 56 zero rows below the 4616 token rows and the slice
  drops rows 4616 … 4671 again, so a kept row `r` sees only row `r` of the unpadded array; the weight enters
  transposed, so feature `e` meets row `e` of the weight.
-/
import proofs.«165519_j29884382445590_1_alg».proof.Proof.KStream
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open scoped BigOperators

namespace Cert.KernelIdeal.Stream

open Cert.KernelIdeal Cert.KernelIdeal.Facts₀ Idealize.ShloMosaic Idealize.ShloMosaic.ValueIdx

/-- The zero-padded rows read at a kept row are the rows themselves. -/
theorem pad_rows_apply (a : Vec Ideal S4616x1280 .f32) (r : Fin 4616) (k : Fin 1280) :
    pad S4672x1280 ![0, 0] ![56, 0] ![0, 0] a (sitofp (F := Ideal) .f32 (constantI S_ 32 0#32)) pads_S4616x1280_S4672x1280_0560_000 h_S_
      (ix2 (⟨r.val, by have := r.isLt; omega⟩ : Fin 4672) k) = a (ix2 r k) := by
  refine pad_apply_of_inside _ _ _ a _ pads_S4616x1280_S4672x1280_0560_000 h_S_ _ (ix2 r k) (fun x => ?_)
  match x with
  | ⟨0, _⟩ => show r.val = 0 + r.val * (0 + 1); omega
  | ⟨1, _⟩ => show k.val = 0 + k.val * (0 + 1); omega

/-- The transposed weight read at (k, e) is the weight at (e, k). -/
theorem transpose_w_apply (w : Vec Ideal S1280x1280 .f32) (k e : Fin 1280) :
    transpose S1280x1280 [1, 0] w transposes_S1280x1280_S1280x1280_1_0 (ix2 k e) = w (ix2 e k) := by
  refine transpose_apply _ w transposes_S1280x1280_S1280x1280_1_0 (ix2 k e) (ix2 e k) (fun b => ?_)
  match b with
  | ⟨0, _⟩ => rfl
  | ⟨1, _⟩ => rfl

/-- The padded projection read at a kept row `r` and a feature `e`: row `r` of `a` against ROW `e` of `w`
    (the kernel projects against the transposed weight), plus the bias at `e`. -/
theorem proj_apply (a : Vec Ideal S4616x1280 .f32) (w : Vec Ideal S1280x1280 .f32) (b : Vec Ideal S1280 .f32) (r : Fin 4616) (e : Fin 1280) :
    proj a w b (ix2 r e) = (∑ k : Fin 1280, a (ix2 r k) * w (ix2 e k)) + b (ix1 e) := by
  unfold proj
  refine (extractStridedSlice_apply ![0, 0] _ slices_S4672x1280_S4616x1280_0_0 (ix2 r e)
    (ix2 (⟨r.val, by have := r.isLt; omega⟩ : Fin 4672) e) (fun x => ?_)).trans ?_
  · match x with
    | ⟨0, _⟩ => show r.val = 0 + r.val; omega
    | ⟨1, _⟩ => show e.val = 0 + e.val; omega
  · show (∑ k : Fin 1280, _ * _) + b (ix1 e) = _
    congr 1
    refine Finset.sum_congr rfl (fun k _ => ?_)
    exact congrArg₂ (· * ·) (pad_rows_apply a r k) (transpose_w_apply w k e)

end Cert.KernelIdeal.Stream

end
-- ==== Proof.BridgeV.lean ====
/-
  The values array of the two programs is one function. Head `n = 16·b + h`, position `j`, feature `d`:
  the kernel flattens (b, j) to row 577·b + j, projects the row against rows 2560 + e of the input weight (the value
  third) and reads feature e = 80·h + d; the reference projects against all 3840 rows, adds the bias, slices features
  2560 … 3839 and splits them into 16 heads of 80. Both are
  `∑ k, x[b, j, k] · W[2560 + 80·h + d, k] + bias[2560 + 80·h + d]`.
-/
import proofs.«165519_j29884382445590_1_alg».proof.Proof.KStream
import proofs.«165519_j29884382445590_1_alg».proof.Proof.BridgeProj
import proofs.«165519_j29884382445590_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.ValueIdx

/-- The batch of head `n = 16·b + h`. -/
abbrev vBatch (n : Fin 128) : Fin 8 := ⟨n.val / 16, by have := n.isLt; omega⟩

/-- The head of `n = 16·b + h` within its batch. -/
abbrev vHead (n : Fin 128) : Fin 16 := ⟨n.val % 16, by omega⟩

/-- The row of the input projection's weight (and the entry of its bias) behind feature `d` of head `n`:
    the value third starts at row 2560, and head `h` owns 80 rows of it. -/
abbrev vRow (n : Fin 128) (d : Fin 80) : Fin 3840 := ⟨2560 + 80 * (n.val % 16) + d.val, by have := d.isLt; omega⟩

/-- The flattened (batch, position) row of head `n` at position `j`. -/
abbrev vFlat (n : Fin 128) (j : Fin 577) : Fin 4616 := ⟨577 * (n.val / 16) + j.val, by have := n.isLt; have := j.isLt; omega⟩

/-- The feature of head `n` at `d` among the 1280 features of the value third. -/
abbrev vFeat (n : Fin 128) (d : Fin 80) : Fin 1280 := ⟨80 * (n.val % 16) + d.val, by have := d.isLt; omega⟩

/-- The kernel's values array at head `n`, position `j`, feature `d`. -/
theorem kV9_apply (x0 : Vec Ideal Cert.KernelIdeal.S8x577x1280 .f32) (x2 : Vec Ideal Cert.KernelIdeal.S3840x1280 .f32)
    (x3 : Vec Ideal Cert.KernelIdeal.S3840 .f32) (n : Fin 128) (j : Fin 577) (d : Fin 80) :
    Cert.KernelIdeal.Stream.kV9 x0 x2 x3 (ix3 n j d)
      = (∑ k : Fin 1280, x0 (ix3 (vBatch n) j k) * x2 (ix2 (vRow n d) k)) + x3 (ix1 (vRow n d)) := by
  have hn := n.isLt
  have hj := j.isLt
  have hd := d.isLt
  unfold Cert.KernelIdeal.Stream.kV9
  refine (shapeCast_apply _ _ (ix3 n j d) (ix4 (vBatch n) (vHead n) j d) ?_).trans ?_
  · rw [Shape.rowMajor_val_four, Shape.rowMajor_val_three]
    show ((n.val / 16 * 16 + n.val % 16) * 577 + j.val) * 80 + d.val = (n.val * 577 + j.val) * 80 + d.val
    omega
  refine (transpose_apply _ _ _ (ix4 (vBatch n) (vHead n) j d) (ix4 (vBatch n) j (vHead n) d) (fun b => ?_)).trans ?_
  · match b with
    | ⟨0, _⟩ => rfl
    | ⟨1, _⟩ => rfl
    | ⟨2, _⟩ => rfl
    | ⟨3, _⟩ => rfl
  refine (shapeCast_apply _ _ (ix4 (vBatch n) j (vHead n) d) (ix2 (vFlat n j) (vFeat n d)) ?_).trans ?_
  · rw [Shape.rowMajor_val_two, Shape.rowMajor_val_four]
    show (577 * (n.val / 16) + j.val) * 1280 + (80 * (n.val % 16) + d.val)
      = ((n.val / 16 * 577 + j.val) * 16 + n.val % 16) * 80 + d.val
    omega
  rw [Cert.KernelIdeal.Stream.proj_apply]
  refine congrArg₂ (· + ·) (Finset.sum_congr rfl (fun k _ => congrArg₂ (· * ·) ?_ ?_)) ?_
  · refine shapeCast_apply _ _ (ix2 (vFlat n j) k) (ix3 (vBatch n) j k) ?_
    rw [Shape.rowMajor_val_three, Shape.rowMajor_val_two]
    show (n.val / 16 * 577 + j.val) * 1280 + k.val = (577 * (n.val / 16) + j.val) * 1280 + k.val
    omega
  · refine extractStridedSlice_apply _ _ _ (ix2 (vFeat n d) k) (ix2 (vRow n d) k) (fun a => ?_)
    match a with
    | ⟨0, _⟩ => show 2560 + 80 * (n.val % 16) + d.val = 2560 + (80 * (n.val % 16) + d.val); omega
    | ⟨1, _⟩ => show k.val = 0 + k.val; omega
  · refine extractStridedSlice_apply _ _ _ (ix1 (vFeat n d)) (ix1 (vRow n d)) (fun a => ?_)
    match a with
    | ⟨0, _⟩ => show 2560 + 80 * (n.val % 16) + d.val = 2560 + (80 * (n.val % 16) + d.val); omega

/-- The reference's index chain from the values array back to the projection: head `n`, position `j`,
    feature `d` reads the projection at batch `n / 16`, position `j`, column `2560 + 80·(n % 16) + d`. -/
theorem idx_chain (n : Fin 128) (j : Fin 577) (d : Fin 80) :
    Cert.ReferenceIdeal.Read.idx_main_v6 (Cert.ReferenceIdeal.Read.idx_main_v7 (Cert.ReferenceIdeal.Read.idx_main_v8
      (Cert.ReferenceIdeal.Read.idx_main_v9 (ix3 n j d)))) = ix3 (vBatch n) j (vRow n d) := by
  have hn := n.isLt
  have hj := j.isLt
  have hd := d.isLt
  have e9 : Cert.ReferenceIdeal.Read.idx_main_v9 (ix3 n j d) = ix4 (vBatch n) (vHead n) j d := by
    funext a
    match a with
    | ⟨0, _⟩ => exact Fin.ext (by show ((n.val * 577 + j.val) * 80 + d.val) / 738560 = n.val / 16; omega)
    | ⟨1, _⟩ => exact Fin.ext (by show ((n.val * 577 + j.val) * 80 + d.val) / 46160 % 16 = n.val % 16; omega)
    | ⟨2, _⟩ => exact Fin.ext (by show ((n.val * 577 + j.val) * 80 + d.val) / 80 % 577 = j.val; omega)
    | ⟨3, _⟩ => exact Fin.ext (by show ((n.val * 577 + j.val) * 80 + d.val) % 80 = d.val; omega)
  have e8 : Cert.ReferenceIdeal.Read.idx_main_v8 (ix4 (vBatch n) (vHead n) j d) = ix4 (vBatch n) j (vHead n) d := by
    funext a
    match a with
    | ⟨0, _⟩ => rfl
    | ⟨1, _⟩ => rfl
    | ⟨2, _⟩ => rfl
    | ⟨3, _⟩ => rfl
  have e7 : Cert.ReferenceIdeal.Read.idx_main_v7 (ix4 (vBatch n) j (vHead n) d) = ix3 (vBatch n) j (vFeat n d) := by
    funext a
    match a with
    | ⟨0, _⟩ => exact Fin.ext (by show (((n.val / 16 * 577 + j.val) * 16 + n.val % 16) * 80 + d.val) / 738560 = n.val / 16; omega)
    | ⟨1, _⟩ => exact Fin.ext (by show (((n.val / 16 * 577 + j.val) * 16 + n.val % 16) * 80 + d.val) / 1280 % 577 = j.val; omega)
    | ⟨2, _⟩ => exact Fin.ext (by show (((n.val / 16 * 577 + j.val) * 16 + n.val % 16) * 80 + d.val) % 1280 = 80 * (n.val % 16) + d.val; omega)
  have e6 : Cert.ReferenceIdeal.Read.idx_main_v6 (ix3 (vBatch n) j (vFeat n d)) = ix3 (vBatch n) j (vRow n d) := by
    funext a
    match a with
    | ⟨0, _⟩ => rfl
    | ⟨1, _⟩ => rfl
    | ⟨2, _⟩ => exact Fin.ext (by show 2560 + (80 * (n.val % 16) + d.val) = 2560 + 80 * (n.val % 16) + d.val; omega)
  rw [e9, e8, e7, e6]

/-- The reference's projection (product plus broadcast bias) at batch `b`, position `j`, column `c`. -/
theorem val_main_v3_at (x0 : Vec Ideal Cert.KernelIdeal.S8x577x1280 .f32) (x2 : Vec Ideal Cert.KernelIdeal.S3840x1280 .f32)
    (x3 : Vec Ideal Cert.KernelIdeal.S3840 .f32) (b : Fin 8) (j : Fin 577) (c : Fin 3840) :
    Cert.ReferenceIdeal.Read.val_main_v3 (F := Ideal) x0 x2 x3 (ix3 b j c)
      = (∑ k : Fin 1280, x0 (ix3 b j k) * x2 (ix2 c k)) + x3 (ix1 c) := by
  rw [Cert.ReferenceIdeal.Read.val_main_v3_apply, Cert.ReferenceIdeal.Read.val_main_v0_apply,
    Cert.ReferenceIdeal.Read.val_main_v2_apply, Cert.ReferenceIdeal.Read.val_main_v1_apply]
  refine congrArg₂ (· + ·) (Finset.sum_congr rfl (fun k _ => congrArg₂ (· * ·) (congrArg x0 ?_) (congrArg x2 ?_))) (congrArg x3 ?_)
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl

/-- The reference's values array at head `n`, position `j`, feature `d`. -/
theorem val_main_v9_at (x0 : Vec Ideal Cert.KernelIdeal.S8x577x1280 .f32) (x2 : Vec Ideal Cert.KernelIdeal.S3840x1280 .f32)
    (x3 : Vec Ideal Cert.KernelIdeal.S3840 .f32) (n : Fin 128) (j : Fin 577) (d : Fin 80) :
    Cert.ReferenceIdeal.Read.val_main_v9 (F := Ideal) x0 x2 x3 (ix3 n j d)
      = (∑ k : Fin 1280, x0 (ix3 (vBatch n) j k) * x2 (ix2 (vRow n d) k)) + x3 (ix1 (vRow n d)) := by
  rw [Cert.ReferenceIdeal.Read.val_main_v9_apply, Cert.ReferenceIdeal.Read.val_main_v8_apply,
    Cert.ReferenceIdeal.Read.val_main_v7_apply, Cert.ReferenceIdeal.Read.val_main_v6_apply, idx_chain]
  exact val_main_v3_at x0 x2 x3 (vBatch n) j (vRow n d)

/-- The kernel's values array is the reference's: at head `n = 16·b + h`, position `j`, feature `d` both are
    `∑ k, x[b, j, k] · W[2560 + 80·h + d, k] + bias[2560 + 80·h + d]`. -/
theorem v_eq (x0 : Vec Ideal Cert.KernelIdeal.S8x577x1280 .f32) (x2 : Vec Ideal Cert.KernelIdeal.S3840x1280 .f32) (x3 : Vec Ideal Cert.KernelIdeal.S3840 .f32) :
    Cert.KernelIdeal.Stream.kV9 x0 x2 x3 = Cert.ReferenceIdeal.Read.val_main_v9 (F := Ideal) x0 x2 x3 := by
  funext i
  obtain ⟨n, j, d, rfl⟩ : ∃ (n : Fin 128) (j : Fin 577) (d : Fin 80), i = ix3 n j d := ⟨i 0, i 1, i 2, eq_ix3 i⟩
  exact (kV9_apply x0 x2 x3 n j d).trans (val_main_v9_at x0 x2 x3 n j d).symm

end Cert.Bridge

end
-- ==== Proof.BridgeOut.lean ====
/-
  The attention product and the output of the two programs are one function. The product: both sum, over the key
  position, the attention weights times the values of the same head. The output at batch `b`, position `s`,
  feature `e`: both move the head axis back beside the features, join (head, feature) to 1280 and project row
  (b, s) against row `e` of the output weight, plus the output bias; the kernel does it on rows 577·b + s of a
  padded array.
-/
import proofs.«165519_j29884382445590_1_alg».proof.Proof.KStream
import proofs.«165519_j29884382445590_1_alg».proof.Proof.BridgeProj
import proofs.«165519_j29884382445590_1_alg».proof.Proof.BridgeV
import proofs.«165519_j29884382445590_1_alg».proof.Proof.BridgeAw
import proofs.«165519_j29884382445590_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.ValueIdx

/-- The left operand's index of the reference's batched product is `(n, i, k)`. -/
theorem lidx35_eq (i : Cert.ReferenceIdeal.S128x577x80.Idx) (k : Fin 577) :
    Cert.ReferenceIdeal.Read.lidx_main_v35 i k = ix3 (i 0) (i 1) k := by
  funext a
  match a with
  | ⟨0, _⟩ => rfl
  | ⟨1, _⟩ => rfl
  | ⟨2, _⟩ => rfl

/-- The right operand's index of the reference's batched product is `(n, k, d)`. -/
theorem ridx35_eq (i : Cert.ReferenceIdeal.S128x577x80.Idx) (k : Fin 577) :
    Cert.ReferenceIdeal.Read.ridx_main_v35 i k = ix3 (i 0) k (i 2) := by
  funext a
  match a with
  | ⟨0, _⟩ => rfl
  | ⟨1, _⟩ => rfl
  | ⟨2, _⟩ => rfl

/-- The kernel's attention product is the reference's batched product of the weights and the values. -/
theorem ao_eq (x0 : Vec Ideal Cert.KernelIdeal.S8x577x1280 .f32) (x1 : Vec Ideal Cert.KernelIdeal.S8x16x577x577 .f32)
    (x2 : Vec Ideal Cert.KernelIdeal.S3840x1280 .f32) (x3 : Vec Ideal Cert.KernelIdeal.S3840 .f32) :
    Cert.KernelIdeal.Stream.kAo x0 x1 x2 x3 = Cert.ReferenceIdeal.Read.val_main_v35 (F := Ideal) x0 x1 x2 x3 := by
  funext i
  rw [Cert.ReferenceIdeal.Read.val_main_v35_apply, ← aw_eq, ← v_eq]
  unfold Cert.KernelIdeal.Stream.kAo Cert.Spec.aoSpec Cert.KernelIdeal.Stream.kAw
  refine Finset.sum_congr rfl fun k _ => ?_
  rw [lidx35_eq, ridx35_eq]
  rfl

/-- The kernel's re-laid attention product, read at row `577·b + s` and column `k`: batch `b`, head `k / 80`,
    position `s`, feature `k % 80` of the product, that is pair `16·b + k / 80`. -/
theorem relay_apply (Y : Vec Ideal Cert.KernelIdeal.S128x577x80 .f32) (b : Fin 8) (s : Fin 577) (k : Fin 1280) :
    shapeCast Cert.KernelIdeal.S4616x1280
        (transpose Cert.KernelIdeal.S8x577x16x80 [0, 2, 1, 3]
          (shapeCast Cert.KernelIdeal.S8x16x577x80 Y Cert.KernelIdeal.Facts₀.shapeCasts_S128x577x80_S8x16x577x80)
          Cert.KernelIdeal.Facts₀.transposes_S8x16x577x80_S8x577x16x80_0_2_1_3)
        Cert.KernelIdeal.Facts₀.shapeCasts_S8x577x16x80_S4616x1280
        (ix2 (⟨577 * b.val + s.val, by have := b.isLt; have := s.isLt; omega⟩ : Fin 4616) k)
      = Y (ix3 (⟨16 * b.val + k.val / 80, by have := b.isLt; have := k.isLt; omega⟩ : Fin 128) s
            (⟨k.val % 80, Nat.mod_lt _ (by decide)⟩ : Fin 80)) := by
  have hb := b.isLt
  have hs := s.isLt
  have hk := k.isLt
  refine (shapeCast_apply _ _ _
    (ix4 b s (⟨k.val / 80, by omega⟩ : Fin 16) (⟨k.val % 80, Nat.mod_lt _ (by decide)⟩ : Fin 80)) ?_).trans ?_
  · rw [Shape.rowMajor_val_four, Shape.rowMajor_val_two]
    show ((b.val * 577 + s.val) * 16 + k.val / 80) * 80 + k.val % 80 = (577 * b.val + s.val) * 1280 + k.val
    omega
  refine (transpose_apply _ _ _ _
    (ix4 b (⟨k.val / 80, by omega⟩ : Fin 16) s (⟨k.val % 80, Nat.mod_lt _ (by decide)⟩ : Fin 80)) ?_).trans ?_
  · intro a
    match a with
    | ⟨0, _⟩ => rfl
    | ⟨1, _⟩ => rfl
    | ⟨2, _⟩ => rfl
    | ⟨3, _⟩ => rfl
  refine shapeCast_apply _ _ _ _ ?_
  rw [Shape.rowMajor_val_three, Shape.rowMajor_val_four]
  show ((16 * b.val + k.val / 80) * 577 + s.val) * 80 + k.val % 80
      = ((b.val * 16 + k.val / 80) * 577 + s.val) * 80 + k.val % 80
  omega

/-- Column `k` of row `(b, s)` of the joined features is head `k / 80`, feature `k % 80`. -/
theorem idx38_lidx39 (b : Fin 8) (s : Fin 577) (e k : Fin 1280) :
    Cert.ReferenceIdeal.Read.idx_main_v38 (Cert.ReferenceIdeal.Read.lidx_main_v39 (ix3 b s e) k)
      = ix4 b s (⟨k.val / 80, by have := k.isLt; omega⟩ : Fin 16) (⟨k.val % 80, Nat.mod_lt _ (by decide)⟩ : Fin 80) := by
  have hb := b.isLt
  have hs := s.isLt
  have hk := k.isLt
  funext a
  refine Fin.ext ?_
  match a with
  | ⟨0, _⟩ =>
    show ((b.val * 577 + s.val) * 1280 + k.val) / 738560 = b.val
    omega
  | ⟨1, _⟩ =>
    show ((b.val * 577 + s.val) * 1280 + k.val) / 1280 % 577 = s.val
    omega
  | ⟨2, _⟩ =>
    show ((b.val * 577 + s.val) * 1280 + k.val) / 80 % 16 = k.val / 80
    omega
  | ⟨3, _⟩ =>
    show ((b.val * 577 + s.val) * 1280 + k.val) % 80 = k.val % 80
    omega

/-- The transposition exchanges position and head. -/
theorem idx37_ix4 (b : Fin 8) (s : Fin 577) (h : Fin 16) (d : Fin 80) :
    Cert.ReferenceIdeal.Read.idx_main_v37 (ix4 b s h d) = ix4 b h s d := by
  funext a
  match a with
  | ⟨0, _⟩ => rfl
  | ⟨1, _⟩ => rfl
  | ⟨2, _⟩ => rfl
  | ⟨3, _⟩ => rfl

/-- Batch `b`, head `h` is pair `16·b + h`. -/
theorem idx36_ix4 (b : Fin 8) (h : Fin 16) (s : Fin 577) (d : Fin 80) :
    Cert.ReferenceIdeal.Read.idx_main_v36 (ix4 b h s d)
      = ix3 (⟨16 * b.val + h.val, by have := b.isLt; have := h.isLt; omega⟩ : Fin 128) s d := by
  have hb := b.isLt
  have hh := h.isLt
  have hs := s.isLt
  have hd := d.isLt
  funext a
  refine Fin.ext ?_
  match a with
  | ⟨0, _⟩ =>
    show (((b.val * 16 + h.val) * 577 + s.val) * 80 + d.val) / 46160 = 16 * b.val + h.val
    omega
  | ⟨1, _⟩ =>
    show (((b.val * 16 + h.val) * 577 + s.val) * 80 + d.val) / 80 % 577 = s.val
    omega
  | ⟨2, _⟩ =>
    show (((b.val * 16 + h.val) * 577 + s.val) * 80 + d.val) % 80 = d.val
    omega

/-- The weight's index of the reference's output product is `(e, k)`. -/
theorem ridx39_eq (b : Fin 8) (s : Fin 577) (e k : Fin 1280) :
    Cert.ReferenceIdeal.Read.ridx_main_v39 (ix3 b s e) k = ix2 e k := by
  funext a
  match a with
  | ⟨0, _⟩ => rfl
  | ⟨1, _⟩ => rfl

/-- The bias is read at the feature. -/
theorem idx40_idx41 (b : Fin 8) (s : Fin 577) (e : Fin 1280) :
    Cert.ReferenceIdeal.Read.idx_main_v40 (Cert.ReferenceIdeal.Read.idx_main_v41 (ix3 b s e)) = ix1 e := by
  funext a
  match a with
  | ⟨0, _⟩ => rfl

/-- The reference's joined features at `(b, s, k)`: the attention product of pair `16·b + k / 80` at position `s`,
    feature `k % 80`. -/
theorem v38_at (x0 : Vec Ideal Cert.KernelIdeal.S8x577x1280 .f32) (x1 : Vec Ideal Cert.KernelIdeal.S8x16x577x577 .f32)
    (x2 : Vec Ideal Cert.KernelIdeal.S3840x1280 .f32) (x3 : Vec Ideal Cert.KernelIdeal.S3840 .f32)
    (b : Fin 8) (s : Fin 577) (e k : Fin 1280) :
    Cert.ReferenceIdeal.Read.val_main_v38 (F := Ideal) x0 x1 x2 x3 (Cert.ReferenceIdeal.Read.lidx_main_v39 (ix3 b s e) k)
      = Cert.ReferenceIdeal.Read.val_main_v35 (F := Ideal) x0 x1 x2 x3
          (ix3 (⟨16 * b.val + k.val / 80, by have := b.isLt; have := k.isLt; omega⟩ : Fin 128) s
            (⟨k.val % 80, Nat.mod_lt _ (by decide)⟩ : Fin 80)) := by
  rw [Cert.ReferenceIdeal.Read.val_main_v38_apply, idx38_lidx39, Cert.ReferenceIdeal.Read.val_main_v37_apply, idx37_ix4,
    Cert.ReferenceIdeal.Read.val_main_v36_apply, idx36_ix4]

/-- The two outputs at batch `b`, position `s`, feature `e`. -/
theorem out_eq_at (x0 : Vec Ideal Cert.KernelIdeal.S8x577x1280 .f32) (x1 : Vec Ideal Cert.KernelIdeal.S8x16x577x577 .f32)
    (x2 : Vec Ideal Cert.KernelIdeal.S3840x1280 .f32) (x3 : Vec Ideal Cert.KernelIdeal.S3840 .f32)
    (x4 : Vec Ideal Cert.KernelIdeal.S1280x1280 .f32) (x5 : Vec Ideal Cert.KernelIdeal.S1280 .f32)
    (b : Fin 8) (s : Fin 577) (e : Fin 1280) :
    Cert.KernelIdeal.Stream.kOut x0 x1 x2 x3 x4 x5 (ix3 b s e)
      = Cert.ReferenceIdeal.Read.val_main_v42 (F := Ideal) x0 x1 x2 x3 x4 x5 (ix3 b s e) := by
  have hb := b.isLt
  have hs := s.isLt
  rw [Cert.ReferenceIdeal.Read.val_main_v42_apply, Cert.ReferenceIdeal.Read.val_main_v39_apply,
    Cert.ReferenceIdeal.Read.val_main_v41_apply, Cert.ReferenceIdeal.Read.val_main_v40_apply, idx40_idx41]
  unfold Cert.KernelIdeal.Stream.kOut
  rw [ao_eq]
  refine (shapeCast_apply _ _ (ix3 b s e) (ix2 (⟨577 * b.val + s.val, by omega⟩ : Fin 4616) e) ?_).trans ?_
  · rw [Shape.rowMajor_val_two, Shape.rowMajor_val_three]
    show (577 * b.val + s.val) * 1280 + e.val = (b.val * 577 + s.val) * 1280 + e.val
    omega
  rw [Cert.KernelIdeal.Stream.proj_apply]
  refine congrArg₂ (fun p q : EReal => p + q) ?_ rfl
  refine Finset.sum_congr rfl fun k _ => ?_
  rw [relay_apply, v38_at, ridx39_eq]

/-- The kernel's output is the reference's: at batch `b`, position `s`, feature `e` both are
    `∑ d, attn[b, s, d] · Wout[e, d] + bout[e]` of the same re-laid attention product. -/
theorem out_eq (x0 : Vec Ideal Cert.KernelIdeal.S8x577x1280 .f32) (x1 : Vec Ideal Cert.KernelIdeal.S8x16x577x577 .f32)
    (x2 : Vec Ideal Cert.KernelIdeal.S3840x1280 .f32) (x3 : Vec Ideal Cert.KernelIdeal.S3840 .f32)
    (x4 : Vec Ideal Cert.KernelIdeal.S1280x1280 .f32) (x5 : Vec Ideal Cert.KernelIdeal.S1280 .f32) :
    Cert.KernelIdeal.Stream.kOut x0 x1 x2 x3 x4 x5 = Cert.ReferenceIdeal.Read.val_main_v42 (F := Ideal) x0 x1 x2 x3 x4 x5 := by
  funext i
  rw [eq_ix3 i]
  exact out_eq_at x0 x1 x2 x3 x4 x5 (i 0) (i 1) (i 2)

end Cert.Bridge

end
-- ==== Proof.lean ====
/-
  The certificate of a fused attention block: the kernel program (a value projection of every token, the mask
  pipeline fused with the product of the attention weights and the values on groups of four heads, and an output
  projection, each a pallas_call, with layout operations between them) against the plain reference.

  Over the extended reals both programs compute, from the same six arrays,
    values[16·b + h, j, d]  = ∑ k, x[b, j, k] · W_in[2560 + 80·h + d, k] + b_in[2560 + 80·h + d],
    weights[n]              = the mask pipeline on the matrix mask[n / 16, n % 16] (column-normalize, row-normalize,
                              average with the transpose, subtract a fifth of the column maximum, clamp at zero,
                              row-normalize),
    attn[n, i, d]           = ∑ j, weights[n, i, j] · values[n, j, d],
    out[b, s, e]            = ∑ d', attn[16·b + d' / 80, s, d' % 80] · W_out[e, d'] + b_out[e],
  and return (out, weights). The kernel pads the 4616 token rows to 4672 before each projection and drops the
  padding rows after it, casts the matrix products' operands to bf16 (the identity over the reals) and computes the
  value third of the input projection only; the reference computes all three thirds and slices. No law beyond the
  reordering of finite sums is used, so the finiteness precondition is not opened.

  `Cert.KernelIdeal.Value.run` is the kernel's run with both results as terms of the arguments (the three regions'
  whole-array functions threaded through @main's layout operations); `Cert.Bridge.out_eq` and `Cert.Bridge.aw_eq`
  identify those terms with the reference's stages.
-/
import proofs.«165519_j29884382445590_1_alg».proof.Defs
import proofs.«165519_j29884382445590_1_alg».proof.Proof.Gen.Kernel
import proofs.«165519_j29884382445590_1_alg».proof.Proof.Gen.Kernel.Skeleton
import proofs.«165519_j29884382445590_1_alg».proof.Proof.Gen.Kernel.Launch
import proofs.«165519_j29884382445590_1_alg».proof.Proof.Gen.Kernel.Points
import proofs.«165519_j29884382445590_1_alg».proof.Proof.Gen.Kernel.Frame
import proofs.«165519_j29884382445590_1_alg».proof.Proof.Gen.KernelIdeal
import proofs.«165519_j29884382445590_1_alg».proof.Proof.Gen.KernelIdeal.Skeleton
import proofs.«165519_j29884382445590_1_alg».proof.Proof.Gen.KernelIdeal.Launch
import proofs.«165519_j29884382445590_1_alg».proof.Proof.Gen.KernelIdeal.Points
import proofs.«165519_j29884382445590_1_alg».proof.Proof.Gen.KernelIdeal.Frame
import proofs.«165519_j29884382445590_1_alg».proof.Proof.Gen.ReferenceIdeal
import proofs.«165519_j29884382445590_1_alg».proof.Proof.Gen.ReferenceIdeal.Run
import proofs.«165519_j29884382445590_1_alg».proof.Proof.Gen.ReferenceIdeal.Read
import proofs.«165519_j29884382445590_1_alg».proof.Proof.Gen.Pre_finite_inputs
import proofs.«165519_j29884382445590_1_alg».proof.Proof.KValue
import proofs.«165519_j29884382445590_1_alg».proof.Proof.BridgeAw
import proofs.«165519_j29884382445590_1_alg».proof.Proof.BridgeOut
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the six arguments both idealized programs end with the same output and the same
    attention weights: the kernel's two terms of the arguments, which are the reference's last stages. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v42_eq, (hagree c).1, (hagree c).2.1, (hagree c).2.2.1, (hagree c).2.2.2.1,
      (hagree c).2.2.2.2.1, (hagree c).2.2.2.2.2]
    exact (Cert.Bridge.out_eq _ _ _ _ _ _).symm
  · rw [Cert.ReferenceIdeal.Read.val_main_v34_eq, (hagree c).2.1]
    exact (Cert.Bridge.aw_eq _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
